-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S128x64 : Shape := ⟨2, ![128, 64]⟩
abbrev S64 : Shape := ⟨1, ![64]⟩
abbrev S64x64 : Shape := ⟨2, ![64, 64]⟩
abbrev S129x64 : Shape := ⟨2, ![129, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S129x64 : S_.BroadcastsInDim S129x64 (![] : Fin 0 → Fin S129x64.rank)
  reducesTo_S129x64_S_d0_1 : S129x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part3 {F : FTy → Type} [FloatOps F] (main_v48 : IVec S_ 1) (main_v50 : IVec S2x1600000 1) : IVec S_ 1 :=
  let main_c_19 : IVec S_ 1 := constantI S_ 1 1#1
  let main_v51 : IVec S_ 1 := (fun x v => Host.reduce IntOp.andi x v reducesTo_S2x1600000_S_d0_1 h_S_) main_v50 main_c_19
  let main_v52 : IVec S_ 1 := andi main_v48 main_v51
  main_v52

def fn_part2 {F : FTy → Type} [FloatOps F] (main_arg1 : IVec S2x1600000 32) (main_arg8 : FVec F S64 .f32) (main_arg9 : FVec F S64x1 .f32) (main_arg10 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg9
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S2x1600000 32 := broadcastInDim S2x1600000 ![] bcast_S_S2x1600000 main_c_18
  let main_v50 : IVec S2x1600000 1 := cmpi .sge main_arg1 main_v49
  fn_part3 (F := F) main_v48 main_v50

def fn_part1 {F : FTy → Type} [FloatOps F] (main_arg1 : IVec S2x1600000 32) (main_arg5 : FVec F S64x64 .f32) (main_arg6 : FVec F S64 .f32) (main_arg7 : FVec F S129x64 .f32) (main_arg8 : FVec F S64 .f32) (main_arg9 : FVec F S64x1 .f32) (main_arg10 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S129x64 .f32 := Host.absf main_arg7
  let main_cst_10 : FVec F S_ .f32 := constant S_ .f32 0x7F800000#32
  let main_v30 : FVec F S129x64 .f32 := broadcastInDim S129x64 ![] bcast_S_S129x64 main_cst_10
  let main_v31 : IVec S129x64 1 := cmpf .olt main_v29 main_v30
  let main_c_11 : IVec S_ 1 := constantI S_ 1 1#1
  let main_v32 : IVec S_ 1 := (fun x v => Host.reduce IntOp.andi x v reducesTo_S129x64_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x128 .f32) (main_arg1 : IVec S2x1600000 32) (main_arg2 : FVec F S1600000x1 .f32) (main_arg3 : FVec F S128x64 .f32) (main_arg4 : FVec F S64 .f32) (main_arg5 : FVec F S64x64 .f32) (main_arg6 : FVec F S64 .f32) (main_arg7 : FVec F S129x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S128x64 : Shape := ⟨2, ![128, 64]⟩
abbrev S64 : Shape := ⟨1, ![64]⟩
abbrev S64x64 : Shape := ⟨2, ![64, 64]⟩
abbrev S129x64 : Shape := ⟨2, ![129, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S10000x128 : Shape := ⟨2, ![10000, 128]⟩
abbrev S10000x64 : Shape := ⟨2, ![10000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S64x100000 : Shape := ⟨2, ![64, 100000]⟩
abbrev S64x1600000 : Shape := ⟨2, ![64, 1600000]⟩
abbrev S1x1 : Shape := ⟨2, ![1, 1]⟩
abbrev S64x16000 : Shape := ⟨2, ![64, 16000]⟩
abbrev S1x16000 : Shape := ⟨2, ![1, 16000]⟩

abbrev nBuf : Space → Nat
  | .hbm => 136
  | .vmem => 24
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S128x64, .f32⟩
  | 4 => ⟨S64, .f32⟩
  | 5 => ⟨S64x64, .f32⟩
  | 6 => ⟨S64, .f32⟩
  | 7 => ⟨S129x64, .f32⟩
  | 8 => ⟨S64, .f32⟩
  | 9 => ⟨S64x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x64, .f32⟩
  | 54 => ⟨S1700000x1, .f32⟩
  | 55 => ⟨S1700000x64, .f32⟩
  | 56 => ⟨S1700000x64, .f32⟩
  | 57 => ⟨S_, .f32⟩
  | 58 => ⟨S100000x64, .f32⟩
  | 59 => ⟨S1700000x1, .i32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S100000, .i32⟩
  | 69 => ⟨S1700000, .i32⟩
  | 70 => ⟨S1700000, .i32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S100000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S64x100000, .f32⟩
  | 120 => ⟨S1600000x1, .i32⟩
  | 121 => ⟨S64x1600000, .f32⟩
  | 122 => ⟨S1600000x1, .i32⟩
  | 123 => ⟨S64x1600000, .f32⟩
  | 124 => ⟨S1x1600000, .f32⟩
  | 125 => ⟨S64x64, .f32⟩
  | 126 => ⟨S64x64, .f32⟩
  | 127 => ⟨S1x64, .f32⟩
  | _ => ⟨S100000x128, .f32⟩

abbrev hbmTy0_1 (i : Nat) : BufTy := match i % 128 with
  | 0 => ⟨S64x64, .f32⟩
  | 1 => ⟨S64x64, .f32⟩
  | 2 => ⟨S64x1, .f32⟩
  | 3 => ⟨S64x1, .f32⟩
  | 4 => ⟨S1x64, .f32⟩
  | 5 => ⟨S1x1, .f32⟩
  | 6 => ⟨S1x1600000, .f32⟩
  | 7 => ⟨S1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S64x16000, .f32⟩
  | .local _ .vmem, ⟨11, _⟩ => ⟨S64x16000, .f32⟩
  | .local _ .vmem, ⟨12, _⟩ => ⟨S64x16000, .f32⟩
  | .local _ .vmem, ⟨13, _⟩ => ⟨S64x16000, .f32⟩
  | .local _ .vmem, ⟨14, _⟩ => ⟨S1x16000, .f32⟩
  | .local _ .vmem, ⟨15, _⟩ => ⟨S1x16000, .f32⟩
  | .local _ .vmem, ⟨16, _⟩ => ⟨S64x64, .f32⟩
  | .local _ .vmem, ⟨17, _⟩ => ⟨S64x64, .f32⟩
  | .local _ .vmem, ⟨18, _⟩ => ⟨S64x1, .f32⟩
  | .local _ .vmem, ⟨19, _⟩ => ⟨S64x1, .f32⟩
  | .local _ .vmem, ⟨20, _⟩ => ⟨S1x64, .f32⟩
  | .local _ .vmem, ⟨21, _⟩ => ⟨S1x1, .f32⟩
  | .local _ .vmem, ⟨22, _⟩ => ⟨S1x16000, .f32⟩
  | .local _ .vmem, ⟨23, _⟩ => ⟨S1x16000, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_call1_cst : Ref sig .tc := ⟨.hbm, 116, rfl⟩
abbrev main_call1_v0 : Ref sig .tc := ⟨.hbm, 117, rfl⟩
abbrev main_v85 : Ref sig .tc := ⟨.hbm, 118, rfl⟩
abbrev main_v86 : Ref sig .tc := ⟨.hbm, 119, rfl⟩
abbrev main_call2_v0 : Ref sig .tc := ⟨.hbm, 120, rfl⟩
abbrev main_v87 : Ref sig .tc := ⟨.hbm, 121, rfl⟩
abbrev main_call3_v0 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem9_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S64x16000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x16000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x16000 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S1x16000 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S100000x64_S64x100000_1_0 : S100000x64.Transposes [1, 0] S64x100000
  bcast_S1600000_S1600000x1_0 : S1600000.BroadcastsInDim S1600000x1 (![0] : Fin 1 → Fin S1600000x1.rank)
  transposes_S1600000x1_S1x1600000_1_0 : S1600000x1.Transposes [1, 0] S1x1600000
  slices_S129x64_S64x64_0_0 : S129x64.Slices ![0, 0] S64x64
  slices_S129x64_S64x64_64_0 : S129x64.Slices ![64, 0] S64x64
  slices_S129x64_S1x64_128_0 : S129x64.Slices ![128, 0] S1x64
  transposes_S64x64_S64x64_1_0 : S64x64.Transposes [1, 0] S64x64
  transposes_S1x64_S64x1_1_0 : S1x64.Transposes [1, 0] S64x1
  shapeCasts_S64_S64x1 : S64.ShapeCasts S64x1
  transposes_S64x1_S1x64_1_0 : S64x1.Transposes [1, 0] S1x64
  shapeCasts_S1_S1x1 : S1.ShapeCasts S1x1
  inb_S64x16000_S64x16000_0_0 : ∀ a, (![0, 0] : Fin 2 → Nat) a + S64x16000.size a ≤ S64x16000.size a
  h_S64x16000 : 0 < S64x16000.numel
  shapeCasts_S64x16000_S64x16000 : S64x16000.ShapeCasts S64x16000
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  broadcasts_S64x1_S64x16000 : S64x1.Broadcasts S64x16000
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x16000 : S1x1.Broadcasts S1x16000
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  gather_S64x100000_S1600000x1_S64x1600000_0_1_n_n_1_1_641_wf : GatherDims.WF S64x100000 S1600000x1 S64x1600000 [0] [1] [] [1] [] 1 ![64, 1]
  dot_S64x64_S64x16000_S64x16000_1_0_0_1_n_n_wf : DotDims.WF S64x64 S64x16000 S64x16000 [1] [0] [0] [1] [] []
  dot_S64x1_S1x16000_S64x16000_1_0_0_1_n_n_wf : DotDims.WF S64x1 S1x16000 S64x16000 [1] [0] [0] [1] [] []
  dot_S1x64_S64x16000_S1x16000_1_0_0_1_n_n_wf : DotDims.WF S1x64 S64x16000 S1x16000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x16000.size a ≤ S64x1600000.size a
  hwx2_0 : ∀ i : grid2.Coords, EltTy.bits .f32 = 32 ∨ (Rect.block (s := S64x1600000) S64x16000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x16000.size a ≤ S64x1600000.size a
  hwx2_1 : ∀ i : grid2.Coords, EltTy.bits .f32 = 32 ∨ (Rect.block (s := S64x1600000) S64x16000.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16000.size a ≤ S1x1600000.size a
  hwx2_2 : ∀ i : grid2.Coords, EltTy.bits .f32 = 32 ∨ (Rect.block (s := S1x1600000) S1x16000.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x16000.size a ≤ S1x1600000.size a
  hwx2_9 : ∀ i : grid2.Coords, EltTy.bits .f32 = 32 ∨ (Rect.block (s := S1x1600000) S1x16000.size (cc2_transform_9 i) (hinb2_9 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S64x100000_S1600000x1_S64x1600000_0_1_n_n_1_1_641 : GatherDims S64x100000 S1600000x1 S64x1600000 where
  offsetDims := [0]
  collapsedSliceDims := [1]
  operandBatchingDims := []
  startIndicesBatchingDims := []
  startIndexMap := [1]
  indexVectorDim := 1
  sliceSizes := ![64, 1]
  wf := gather_S64x100000_S1600000x1_S64x1600000_0_1_n_n_1_1_641_wf
def dot_S64x64_S64x16000_S64x16000_1_0_0_1_n_n : DotDims S64x64 S64x16000 S64x16000 where
  lhsContracting := [1]
  rhsContracting := [0]
  lhsNonContracting := [0]
  rhsNonContracting := [1]
  lhsBatch := []
  rhsBatch := []
  wf := dot_S64x64_S64x16000_S64x16000_1_0_0_1_n_n_wf
def dot_S64x1_S1x16000_S64x16000_1_0_0_1_n_n : DotDims S64x1 S1x16000 S64x16000 where
  lhsContracting := [1]
  rhsContracting := [0]
  lhsNonContracting := [0]
  rhsNonContracting := [1]
  lhsBatch := []
  rhsBatch := []
  wf := dot_S64x1_S1x16000_S64x16000_1_0_0_1_n_n_wf
def dot_S1x64_S64x16000_S1x16000_1_0_0_1_n_n : DotDims S1x64 S64x16000 S1x16000 where
  lhsContracting := [1]
  rhsContracting := [0]
  lhsNonContracting := [0]
  rhsNonContracting := [1]
  lhsBatch := []
  rhsBatch := []
  wf := dot_S1x64_S64x16000_S1x16000_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v87) S64x16000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S64x16000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S1x16000.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v93) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v94) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v95) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v96) S64x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v97) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v98) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v99) S1x16000.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S128x64 : Shape := ⟨2, ![128, 64]⟩
abbrev S64 : Shape := ⟨1, ![64]⟩
abbrev S64x64 : Shape := ⟨2, ![64, 64]⟩
abbrev S129x64 : Shape := ⟨2, ![129, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1600000x64 : Shape := ⟨2, ![1600000, 64]⟩
abbrev S1600000x129 : Shape := ⟨2, ![1600000, 129]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S128x64, .f32⟩
  | 4 => ⟨S64, .f32⟩
  | 5 => ⟨S64x64, .f32⟩
  | 6 => ⟨S64, .f32⟩
  | 7 => ⟨S129x64, .f32⟩
  | 8 => ⟨S64, .f32⟩
  | 9 => ⟨S64x1, .f32⟩
  | 10 => ⟨S1, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S100000, .i32⟩
  | 17 => ⟨S1700000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x64, .f32⟩
  | 54 => ⟨S1700000x1, .f32⟩
  | 55 => ⟨S1700000x64, .f32⟩
  | 56 => ⟨S1700000x64, .f32⟩
  | 57 => ⟨S_, .f32⟩
  | 58 => ⟨S100000x64, .f32⟩
  | 59 => ⟨S1700000x1, .i32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S100000, .i32⟩
  | 69 => ⟨S1700000, .i32⟩
  | 70 => ⟨S1700000, .i32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S100000, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000x64, .f32⟩
  | 106 => ⟨S1700000x1, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x128, .f32⟩

abbrev hbmTy0_1 (i : Nat) : BufTy := match i % 128 with
  | 0 => ⟨S_, .i32⟩
  | 1 => ⟨S1600000, .i32⟩
  | 2 => ⟨S1600000, .i1⟩
  | 3 => ⟨S_, .i32⟩
  | 4 => ⟨S1600000, .i32⟩
  | 5 => ⟨S1600000, .i32⟩
  | 6 => ⟨S1600000, .i32⟩
  | 7 => ⟨S1600000x1, .i32⟩
  | 8 => ⟨S1600000x64, .f32⟩
  | 9 => ⟨S1600000x129, .f32⟩
  | 10 => ⟨S1600000x64, .f32⟩
  | 11 => ⟨S1x64, .f32⟩
  | 12 => ⟨S1600000x64, .f32⟩
  | 13 => ⟨S1600000x64, .f32⟩
  | 14 => ⟨S_, .f32⟩
  | 15 => ⟨S1600000x64, .f32⟩
  | 16 => ⟨S1600000x64, .f32⟩
  | 17 => ⟨S1600000x1, .f32⟩
  | 18 => ⟨S1x1, .f32⟩
  | 19 => ⟨S1600000x1, .f32⟩
  | 20 => ⟨S1600000x1, .f32⟩
  | 21 => ⟨S1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_c_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_c_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_call1_cst : Ref sig .tc := ⟨.hbm, 116, rfl⟩
abbrev main_call1_v0 : Ref sig .tc := ⟨.hbm, 117, rfl⟩
abbrev main_v85 : Ref sig .tc := ⟨.hbm, 118, rfl⟩
abbrev main_c_16 : Ref sig .tc := ⟨.hbm, 119, rfl⟩
abbrev main_v86 : Ref sig .tc := ⟨.hbm, 120, rfl⟩
abbrev main_v87 : Ref sig .tc := ⟨.hbm, 121, rfl⟩
abbrev main_c_17 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_18 : Ref sig .tc := ⟨.hbm, 128, rfl⟩
abbrev main_v93 : Ref sig .tc := ⟨.hbm, 129, rfl⟩
abbrev main_v94 : Ref sig .tc := ⟨.hbm, 130, rfl⟩
abbrev main_c_19 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_call2_cst : Ref sig .tc := ⟨.hbm, 142, rfl⟩
abbrev main_call2_v0 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x1_S1600000x129_d1 : Shape.Concatenates [S1600000x64, S1600000x64, S1600000x1] S1600000x129 1
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  shapeCasts_S1600000x1_S1600000 : S1600000x1.ShapeCasts S1600000
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x129_S129x64_S1600000x64_1_0_0_1_n_n_wf : DotDims.WF S1600000x129 S129x64 S1600000x64 [1] [0] [0] [1] [] []
  dot_S1600000x64_S64x1_S1600000x1_1_0_0_1_n_n_wf : DotDims.WF S1600000x64 S64x1 S1600000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x129_S129x64_S1600000x64_1_0_0_1_n_n : DotDims S1600000x129 S129x64 S1600000x64 where
  lhsContracting := [1]
  rhsContracting := [0]
  lhsNonContracting := [0]
  rhsNonContracting := [1]
  lhsBatch := []
  rhsBatch := []
  wf := dot_S1600000x129_S129x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf

class Facts : Prop extends Facts₀ where

variable [Facts]
-- ==== Proof.Spec.lean ====
/-
  The values both programs compute, named once.

  A graph-convolution layer takes node features h : [N, 64] (N = 100000), edge endpoints s, d : [E] (E = 1600000) and
  a bias b : [64]. A self-loop is appended to every node (s' = s ++ iota, d' = d ++ iota), the degree of node n is the
  number of entries of d' equal to n, and the layer is

      relu ( scatter-add over d' of ( h[s'] * (deg^(-1/2)[s'] * deg^(-1/2)[d']) ) + b ).

  Every index that reads a table is first wrapped (a negative index i reads i + N) and then clamped by the gather; the
  scatter-add drops out-of-range targets. Both programs spell the layer by the same host operations, so it is carried
  here as ONE function of (h, s, d, b) and never opened.

  The node features after two layers are  layer (layer (x·W1) b1 · W2) b2, the dense products being plain matrix
  products. The edge score of edge e is then

      sum_j relu( sum_q cat(e, q) · W3[q, j] + b3[j] ) · W4[j, 0] + b4[0],   cat(e, ·) = h[s e] ++ h[d e] ++ [ea e],

  stated below once in the arrangement of the reference (one sum over the 129 concatenated features) and once in the
  arrangement of the kernel (three partial products, transposed operands).
-/
import proofs.«405414_j17695265259649_3_alg».proof.KernelIdeal
import Idealize.ShloMosaic.Lib.ValueIdx
import Idealize.ShloMosaic.PureOps.Ideal

noncomputable section

namespace Cert.Spec

open Idealize.ShloMosaic Cert.KernelIdeal Cert.KernelIdeal.Facts₀ Cert.KernelIdeal.Facts

variable {F : FTy → Type} [FloatOps F] [Cert.KernelIdeal.Facts]

/-- Row 0 of the edge list: the source node of every edge. -/
def srcOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge list: the target node of every edge. -/
def dstOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- The edge endpoints with one self-loop per node appended. -/
def withLoops (s : (⟨S1600000, .i32⟩ : BufTy).Contents (Elt F)) : (⟨S1700000, .i32⟩ : BufTy).Contents (Elt F) :=
  concatenate S1700000 0 [⟨S1600000, s⟩, ⟨S100000, (iotaInDim S100000 32 0)⟩] concatenates_S1600000_S100000_S1700000_d0

/-- A column of table indices: a negative index i is read as i + N. -/
def wrapCol (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- deg^(-1/2): the degree of a node counts the entries of d' that name it. -/
def degInvSqrt (d' : (⟨S1700000, .i32⟩ : BufTy).Contents (Elt F)) : (⟨S100000, .f32⟩ : BufTy).Contents (Elt F) :=
  Host.rsqrt (Host.scatterAdd scatter_S100000_S1700000x1_S1700000_n_0_0_1
    (broadcastInDim S100000 ![] bcast_S_S100000 (constant S_ .f32 0x00000000#32))
    (broadcastInDim S1700000x1 ![0] bcast_S1700000_S1700000x1_0 d')
    (broadcastInDim S1700000 ![] bcast_S_S1700000 (constant S_ .f32 0x3F800000#32)))

/-- One graph-convolution layer with its relu, as both programs spell it on the host. -/
def layer (h : (⟨S100000x64, .f32⟩ : BufTy).Contents (Elt F)) (s d : (⟨S1600000, .i32⟩ : BufTy).Contents (Elt F))
    (b : (⟨S64, .f32⟩ : BufTy).Contents (Elt F)) : (⟨S100000x64, .f32⟩ : BufTy).Contents (Elt F) :=
  maximumf
    (addf
      (Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 (withLoops d))
        (mulf
          (Host.gather gather_S100000x64_S1700000x1_S1700000x64_1_0_n_n_0_1_164 h (wrapCol (withLoops s)))
          (broadcastInDim S1700000x64 ![0, 1] bcast_S1700000x1_S1700000x64_0_1
            (broadcastInDim S1700000x1 ![0] bcast_S1700000_S1700000x1_0
              (mulf
                (Host.gather gather_S100000_S1700000x1_S1700000_n_0_n_n_0_1_1 (degInvSqrt (withLoops d)) (wrapCol (withLoops s)))
                (Host.gather gather_S100000_S1700000x1_S1700000_n_0_n_n_0_1_1 (degInvSqrt (withLoops d)) (wrapCol (withLoops d))))))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-! ## At the ideal instance: the dense products and the node features -/

open Idealize.ShloMosaic.ValueIdx in
/-- A plain matrix product on the extended reals: entry (i, j) is the sum over k of x[i, k] · w[k, j]. -/
def dense {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, (i 0).isLt⟩ : Fin M) k) * w (ix2 k (⟨(i 1).val, (i 1).isLt⟩ : Fin N))

/-- The node features after the two layers: layer (layer (x·W1) b1 · W2) b2 over the same edges. -/
def nodeFeat (x : (⟨S100000x128, .f32⟩ : BufTy).Contents (Elt Ideal)) (ei : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal)) :
    (⟨S100000x64, .f32⟩ : BufTy).Contents (Elt Ideal) :=
  layer (F := Ideal) (dense (M := 100000) (K := 64) (N := 64)
      (layer (F := Ideal) (dense (M := 100000) (K := 128) (N := 64) x w1) (srcOf (F := Ideal) ei) (dstOf (F := Ideal) ei) b1) w2)
    (srcOf (F := Ideal) ei) (dstOf (F := Ideal) ei) b2

end Cert.Spec

end
-- ==== Proof.SpecEdge.lean ====
/-
  The score of one edge, on the extended reals, in the two arrangements the programs use.

  An edge carries 129 features: the 64 features of its source node, the 64 of its target node and its own attribute,
  cat = hs ++ hd ++ [a]. Its score is

      sum_j relu( sum_q cat q · W3[q, j] + b3[j] ) · W4[j, 0] + b4[0].

  The reference contracts the 129 features at once. The kernel contracts the three row blocks of W3 separately
  (rows 0..63 against hs, rows 64..127 against hd, row 128 against a), with the factors in the other order.
  A table row is addressed by a 32-bit index word read signed and clamped into the table; the reference first reads
  a negative word i as i + N.
-/
import Idealize.ShloMosaic.Lib.ValueIdx
import Idealize.ShloMosaic.PureOps.Ideal

noncomputable section

namespace Cert.SpecEdge

open Idealize.ShloMosaic Idealize.ShloMosaic.ValueIdx
open scoped BigOperators

/-- The table row an index word addresses: the word read signed, clamped into [0, N − 1]. -/
def clampRow (N : ℕ) (hN : 0 < N) (w : BitVec 32) : Fin N := ⟨min w.toInt.toNat (N - 1), by omega⟩

/-- How the reference reads an index word before the table clamps it: a negative word i is read as i + 100000. -/
def wrapWord (w : BitVec 32) : BitVec 32 := if w.slt 0#32 then w + 100000#32 else w

/-- The 129 features of an edge: source node, target node, edge attribute. -/
def cat (hs hd : Fin 64 → EReal) (a : EReal) (q : Fin 129) : EReal :=
  if h : q.val < 64 then hs ⟨q.val, h⟩ else if h2 : q.val < 128 then hd ⟨q.val - 64, by omega⟩ else a

/-- The edge score as the reference arranges it: one contraction over the 129 features. -/
def scoreRef (z : EReal) (hs hd : Fin 64 → EReal) (a : EReal) (W3 : (⟨2, ![129, 64]⟩ : Shape).Idx → EReal)
    (b3 : (⟨1, ![64]⟩ : Shape).Idx → EReal) (W4 : (⟨2, ![64, 1]⟩ : Shape).Idx → EReal) (b4 : (⟨1, ![1]⟩ : Shape).Idx → EReal) : EReal :=
  (∑ j : Fin 64, max ((∑ q : Fin 129, cat hs hd a q * W3 (ix2 q j)) + b3 (ix1 j)) z * W4 (ix2 j (0 : Fin 1)))
    + b4 (ix1 (0 : Fin 1))

/-- The edge score as the kernel arranges it: three partial contractions, the weight on the left. -/
def scoreKer (z : EReal) (hs hd : Fin 64 → EReal) (a : EReal) (W3 : (⟨2, ![129, 64]⟩ : Shape).Idx → EReal)
    (b3 : (⟨1, ![64]⟩ : Shape).Idx → EReal) (W4 : (⟨2, ![64, 1]⟩ : Shape).Idx → EReal) (b4 : (⟨1, ![1]⟩ : Shape).Idx → EReal) : EReal :=
  (∑ j : Fin 64, W4 (ix2 j (0 : Fin 1)) *
      max (((∑ k : Fin 64, W3 (ix2 (⟨k.val, by omega⟩ : Fin 129) j) * hs k)
            + (∑ k : Fin 64, W3 (ix2 (⟨64 + k.val, by omega⟩ : Fin 129) j) * hd k)
            + (∑ _k : Fin 1, W3 (ix2 (⟨128, by omega⟩ : Fin 129) j) * a))
          + b3 (ix1 j)) z)
    + b4 (ix1 (0 : Fin 1))

/-- The edge score over the kernel's operand arrays, each as the last pallas_call finds it: the gathered node features
    transposed (features along rows, edges along columns), the three row blocks of W3 transposed, the biases as
    columns. Entry e of the result row. -/
def edgeKer (hs hd : (⟨2, ![64, 1600000]⟩ : Shape).Idx → EReal) (ea : (⟨2, ![1, 1600000]⟩ : Shape).Idx → EReal)
    (w3a w3b : (⟨2, ![64, 64]⟩ : Shape).Idx → EReal) (w3c b3 : (⟨2, ![64, 1]⟩ : Shape).Idx → EReal)
    (w4 : (⟨2, ![1, 64]⟩ : Shape).Idx → EReal) (b4 : (⟨2, ![1, 1]⟩ : Shape).Idx → EReal) (e : Fin 1600000) : EReal :=
  (∑ j : Fin 64, w4 (ix2 (0 : Fin 1) j) *
      max (((∑ k : Fin 64, w3a (ix2 j k) * hs (ix2 k e))
            + (∑ k : Fin 64, w3b (ix2 j k) * hd (ix2 k e))
            + (∑ k : Fin 1, w3c (ix2 j k) * ea (ix2 k e)))
          + b3 (ix2 j (0 : Fin 1))) (Ideal.ofBits .f32 0x00000000#32))
    + b4 (ix2 (0 : Fin 1) (0 : Fin 1))

end Cert.SpecEdge

end
-- ==== Proof.KLeaves.lean ====
import proofs.«405414_j17695265259649_3_alg».proof.Proof.Gen.KernelIdeal.Frame
import proofs.«405414_j17695265259649_3_alg».proof.Proof.Spec

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! The buffers no host stretch and no region writes, read back through the fold of boundary contents to the launch
    memory; and the two rows of the edge list, which the first host stretch writes once. -/

/-- No operation of the stretch writes the buffer. -/
private abbrev Unwritten (ops : List (HloOp τ sig (Elt Ideal))) (b : Ref sig .tc) : Prop :=
  ∀ op ∈ ops, Proc.devRef (τ := τ) .tc b ∉ op.writes

/-- The stretch is a literal list: the buffer differs from each operation's result buffer, one by one. -/
local macro "unwritten" : tactic => `(tactic| (
  refine List.forall_iff_forall_mem.mp ?_
  simp only [hostOps0, hostOps1, hostOps1_1, hostOps2, hostOps2_1, List.flatten_cons, List.flatten_nil, List.append_nil,
    List.cons_append, List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A buffer the first stretch does not write holds its launch contents when the first product is entered. -/
private theorem W1_launch (b : Ref sig .tc) (h0 : Unwritten hostOps0 b) (c : Dev nD) :
    W1 m ρ c (Proc.devRef .tc b) = m ((c : Thread nD τ).loc b) :=
  StableHlo.after_of_forall_not_mem (b := Proc.devRef .tc b) _ _ h0

/-- Such a buffer, no array of the first product, still holds them when the first product is left. -/
private theorem W2_launch (b : Ref sig .tc) (h0 : Unwritten hostOps0 b) (r0 : ∀ w, Pipeline.arrRef spec0 w ≠ b) (c : Dev nD) :
    W2 m ρ c (Proc.devRef .tc b) = m ((c : Thread nD τ).loc b) :=
  (W2_of_ne m ρ c b r0).trans (W1_launch m ρ b h0 c)

/-- The first layer's stretch and its relu leave a buffer they do not write as the first product left it. -/
private theorem W4_pass (b : Ref sig .tc) (h1 : Unwritten hostOps1 b) (h11 : Unwritten hostOps1_1 b) (c : Dev nD) :
    W4 m ρ c (Proc.devRef .tc b) = W2 m ρ c (Proc.devRef .tc b) :=
  (StableHlo.after_of_forall_not_mem (b := Proc.devRef .tc b) _ _ h11).trans
    (StableHlo.after_of_forall_not_mem (b := Proc.devRef .tc b) _ _ h1)

/-- The same through the second product, for a buffer that is none of its arrays. -/
private theorem W5_pass (b : Ref sig .tc) (h1 : Unwritten hostOps1 b) (h11 : Unwritten hostOps1_1 b)
    (r1 : ∀ w, Pipeline.arrRef spec1 w ≠ b) (c : Dev nD) :
    W5 m ρ c (Proc.devRef .tc b) = W2 m ρ c (Proc.devRef .tc b) :=
  (W5_of_ne m ρ c b r1).trans (W4_pass m ρ b h1 h11 c)

/-- The second layer's stretch and its relu leave a buffer they do not write as the second product left it. -/
private theorem W7_pass (b : Ref sig .tc) (h2 : Unwritten hostOps2 b) (h21 : Unwritten hostOps2_1 b) (c : Dev nD) :
    W7 m ρ c (Proc.devRef .tc b) = W5 m ρ c (Proc.devRef .tc b) :=
  (StableHlo.after_of_forall_not_mem (b := Proc.devRef .tc b) _ _ h21).trans
    (StableHlo.after_of_forall_not_mem (b := Proc.devRef .tc b) _ _ h2)

theorem V1_arg0 (c : Dev nD) : V1 m ρ c main_arg0 = m ((c : Thread nD τ).loc main_arg0) :=
  W1_launch m ρ main_arg0 (by unwritten) c
theorem V1_arg3 (c : Dev nD) : V1 m ρ c main_arg3 = m ((c : Thread nD τ).loc main_arg3) :=
  W1_launch m ρ main_arg3 (by unwritten) c
theorem W2_v1 (c : Dev nD) : W2 m ρ c (Proc.devRef .tc main_v1) = Cert.Spec.srcOf (F := Ideal) (m ((c : Thread nD τ).loc main_arg1)) :=
  (W2_of_ne m ρ c main_v1 (by decide)).trans (by
    show StableHlo.after hostOps0 (W0 m ρ c) (Proc.devRef .tc main_v1) = _
    after_results
    rfl)
theorem W2_v3 (c : Dev nD) : W2 m ρ c (Proc.devRef .tc main_v3) = Cert.Spec.dstOf (F := Ideal) (m ((c : Thread nD τ).loc main_arg1)) :=
  (W2_of_ne m ρ c main_v3 (by decide)).trans (by
    show StableHlo.after hostOps0 (W0 m ρ c) (Proc.devRef .tc main_v3) = _
    after_results
    rfl)
theorem W2_arg4 (c : Dev nD) : W2 m ρ c (Proc.devRef .tc main_arg4) = m ((c : Thread nD τ).loc main_arg4) :=
  W2_launch m ρ main_arg4 (by unwritten) (by decide) c
theorem V4_arg5 (c : Dev nD) : V4 m ρ c main_arg5 = m ((c : Thread nD τ).loc main_arg5) :=
  (W4_pass m ρ main_arg5 (by unwritten) (by unwritten) c).trans (W2_launch m ρ main_arg5 (by unwritten) (by decide) c)
theorem W5_v1 (c : Dev nD) : W5 m ρ c (Proc.devRef .tc main_v1) = Cert.Spec.srcOf (F := Ideal) (m ((c : Thread nD τ).loc main_arg1)) :=
  (W5_pass m ρ main_v1 (by unwritten) (by unwritten) (by decide) c).trans (W2_v1 m ρ c)
theorem W5_v3 (c : Dev nD) : W5 m ρ c (Proc.devRef .tc main_v3) = Cert.Spec.dstOf (F := Ideal) (m ((c : Thread nD τ).loc main_arg1)) :=
  (W5_pass m ρ main_v3 (by unwritten) (by unwritten) (by decide) c).trans (W2_v3 m ρ c)
theorem W5_arg6 (c : Dev nD) : W5 m ρ c (Proc.devRef .tc main_arg6) = m ((c : Thread nD τ).loc main_arg6) :=
  (W5_pass m ρ main_arg6 (by unwritten) (by unwritten) (by decide) c).trans (W2_launch m ρ main_arg6 (by unwritten) (by decide) c)
theorem W7_v1 (c : Dev nD) : W7 m ρ c (Proc.devRef .tc main_v1) = Cert.Spec.srcOf (F := Ideal) (m ((c : Thread nD τ).loc main_arg1)) :=
  (W7_pass m ρ main_v1 (by unwritten) (by unwritten) c).trans (W5_v1 m ρ c)
theorem W7_v3 (c : Dev nD) : W7 m ρ c (Proc.devRef .tc main_v3) = Cert.Spec.dstOf (F := Ideal) (m ((c : Thread nD τ).loc main_arg1)) :=
  (W7_pass m ρ main_v3 (by unwritten) (by unwritten) c).trans (W5_v3 m ρ c)
theorem W7_arg2 (c : Dev nD) : W7 m ρ c (Proc.devRef .tc main_arg2) = m ((c : Thread nD τ).loc main_arg2) :=
  (W7_pass m ρ main_arg2 (by unwritten) (by unwritten) c).trans
    ((W5_pass m ρ main_arg2 (by unwritten) (by unwritten) (by decide) c).trans (W2_launch m ρ main_arg2 (by unwritten) (by decide) c))
theorem W7_arg7 (c : Dev nD) : W7 m ρ c (Proc.devRef .tc main_arg7) = m ((c : Thread nD τ).loc main_arg7) :=
  (W7_pass m ρ main_arg7 (by unwritten) (by unwritten) c).trans
    ((W5_pass m ρ main_arg7 (by unwritten) (by unwritten) (by decide) c).trans (W2_launch m ρ main_arg7 (by unwritten) (by decide) c))
theorem W7_arg8 (c : Dev nD) : W7 m ρ c (Proc.devRef .tc main_arg8) = m ((c : Thread nD τ).loc main_arg8) :=
  (W7_pass m ρ main_arg8 (by unwritten) (by unwritten) c).trans
    ((W5_pass m ρ main_arg8 (by unwritten) (by unwritten) (by decide) c).trans (W2_launch m ρ main_arg8 (by unwritten) (by decide) c))
theorem W7_arg9 (c : Dev nD) : W7 m ρ c (Proc.devRef .tc main_arg9) = m ((c : Thread nD τ).loc main_arg9) :=
  (W7_pass m ρ main_arg9 (by unwritten) (by unwritten) c).trans
    ((W5_pass m ρ main_arg9 (by unwritten) (by unwritten) (by decide) c).trans (W2_launch m ρ main_arg9 (by unwritten) (by decide) c))
theorem W7_arg10 (c : Dev nD) : W7 m ρ c (Proc.devRef .tc main_arg10) = m ((c : Thread nD τ).loc main_arg10) :=
  (W7_pass m ρ main_arg10 (by unwritten) (by unwritten) c).trans
    ((W5_pass m ρ main_arg10 (by unwritten) (by unwritten) (by decide) c).trans (W2_launch m ρ main_arg10 (by unwritten) (by decide) c))

end Cert.KernelIdeal.Val

end
-- ==== Proof.LibMatmulPlain.lean ====
/-
  A plain matrix product on the extended reals, read at an entry.

  The dimension record of an M×K by K×N product (contract the left operand's axis 1 with the right operand's
  axis 0, no batch axis) is, whatever its well-formedness proof, the library's `DotDims.plain M K N`. At the ideal
  instance such a product into a zero accumulator is, at entry (i, j), the finite sum over q of l[i, q] · r[q, j]; with
  the right operand given as the transpose of an N×K matrix w, the sum over q of l[i, q] · w[j, q].
  The contraction index of the record is re-indexed to `Fin K` through the library's one-axis equivalence, and each
  operand index is identified coordinate by coordinate.
-/
import Idealize.ShloMosaic.PureOps.Ideal.Laws
import Idealize.ShloMosaic.Lib.ValueIdx
import Idealize.ShloMosaic.Lib.ValueLayout

namespace Cert.LibMatmulPlain

open Idealize.ShloMosaic Idealize.ShloMosaic.ValueIdx
open scoped BigOperators

variable {M K N : ℕ}

/-- The left operand's row coordinate is the result's row coordinate. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contraction index. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction index. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- Entry (i, j) of l·r, accumulated into zero: the sum over q of l[i, q] · r[q, j]. -/
theorem matmul_plain_apply {φ₁ φ₂ : FTy} (l : FVec Ideal ⟨2, ![M, K]⟩ φ₁) (r : FVec Ideal ⟨2, ![K, N]⟩ φ₂) (i : Fin M) (j : Fin N) :
    matmul (DotDims.plain M K N) none l r (constant ⟨2, ![M, N]⟩ .f32 0x00000000#32) (ix2 i j)
      = ∑ q : Fin K, l (ix2 i q) * r (ix2 q j) := by
  simp only [matmul]
  rw [Ideal.matmul_constant_zero_apply, ← Equiv.sum_comp (contrEquiv1 (DotDims.plain M K N) K rfl rfl).symm]
  refine Finset.sum_congr rfl fun q _ => ?_
  have hq := contrEquiv1_symm_val (DotDims.plain M K N) K rfl rfl q
  have el : (DotDims.plain M K N).lhsIdx (ix2 i j) ((contrEquiv1 (DotDims.plain M K N) K rfl rfl).symm q) = ix2 i q :=
    funext fun a => Fin.ext (by
      match a with
      | ⟨0, _⟩ => exact lhs_plain_0 _ _
      | ⟨1, _⟩ => exact (lhs_plain_1 _ _).trans hq)
  have er : (DotDims.plain M K N).rhsIdx (ix2 i j) ((contrEquiv1 (DotDims.plain M K N) K rfl rfl).symm q) = ix2 q j :=
    funext fun a => Fin.ext (by
      match a with
      | ⟨0, _⟩ => exact (rhs_plain_0 _ _).trans hq
      | ⟨1, _⟩ => exact rhs_plain_1 _ _)
  rw [el, er]

/-- Entry (i, j) of l·wᵀ for an N×K matrix w: the sum over q of l[i, q] · w[j, q]. -/
theorem matmul_plain_transpose_apply {φ₁ φ₂ : FTy} (l : FVec Ideal ⟨2, ![M, K]⟩ φ₁) (w : FVec Ideal ⟨2, ![N, K]⟩ φ₂)
    (h : (⟨2, ![N, K]⟩ : Shape).Transposes [1, 0] ⟨2, ![K, N]⟩) (i : Fin M) (j : Fin N) :
    matmul (DotDims.plain M K N) none l (transpose ⟨2, ![K, N]⟩ [1, 0] w h) (constant ⟨2, ![M, N]⟩ .f32 0x00000000#32) (ix2 i j)
      = ∑ q : Fin K, l (ix2 i q) * w (ix2 j q) := by
  rw [matmul_plain_apply]
  exact Finset.sum_congr rfl fun q _ => by rw [transpose_ix2_apply]

end Cert.LibMatmulPlain
-- ==== Proof.Region0.lean ====
import proofs.«405414_j17695265259649_3_alg».proof.Proof.Gen.KernelIdeal.Frame
import proofs.«405414_j17695265259649_3_alg».proof.Proof.Spec
import proofs.«405414_j17695265259649_3_alg».proof.Proof.KLeaves
import proofs.«405414_j17695265259649_3_alg».proof.Proof.LibMatmulPlain
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The body of the first product, at an entry -/

/-- The offsets of an access to a whole block are all zero. -/
private theorem layer1_off_zero : (![0, 0] : Fin 2 → Nat) = fun _ => 0 := funext fun a => by fin_cases a <;> rfl

/-- Entry (r, j) of what the body stores: a change of float format is the identity on the extended reals, and the
    product into a zero accumulator is the sum over the 128 columns q of x[r, q] · w[q, j]. -/
private theorem layer1_body_apply (x : Vec Ideal S10000x128 .f32) (w : Vec Ideal S128x64 .f32) (r : Fin 10000) (j : Fin 64) :
    k0_pay1 x w (ix2 r j) = ∑ q : Fin 128, x (ix2 r q) * w (ix2 q j) := by
  unfold k0_pay1
  exact Cert.LibMatmulPlain.matmul_plain_apply (M := 10000) (K := 128) (N := 64) (φ₁ := .bf16) (φ₂ := .bf16) _ _ r j

/-- The same at any index z of the block, against entry i of the product X · W of two whole arrays: it is enough that
    row z 0 of the block x is row i 0 of X and column z 1 of the block w is column i 1 of W. -/
private theorem layer1_body_eq_dense (x : Vec Ideal S10000x128 .f32) (w : Vec Ideal S128x64 .f32)
    (X : S100000x128.Idx → EReal) (W : S128x64.Idx → EReal) (z : S10000x64.Idx) (i : S100000x64.Idx)
    (hx : ∀ q : Fin 128, x (ix2 (⟨(z 0).val, (z 0).isLt⟩ : Fin 10000) q) = X (ix2 (⟨(i 0).val, (i 0).isLt⟩ : Fin 100000) q))
    (hw : ∀ q : Fin 128, w (ix2 q (⟨(z 1).val, (z 1).isLt⟩ : Fin 64)) = W (ix2 q (⟨(i 1).val, (i 1).isLt⟩ : Fin 64))) :
    k0_pay1 x w z = Cert.Spec.dense (M := 100000) (K := 128) (N := 64) X W i := by
  have ez : z = ix2 (⟨(z 0).val, (z 0).isLt⟩ : Fin 10000) (⟨(z 1).val, (z 1).isLt⟩ : Fin 64) := eq_ix2 z
  refine (congrArg (k0_pay1 x w) ez).trans ((layer1_body_apply x w _ _).trans ?_)
  unfold Cert.Spec.dense
  exact Finset.sum_congr rfl fun q _ => by rw [hx q, hw q]

/-! ## The blocks of the three windows -/

/-- The printed index maps over the grid: the left operand's row block moves with the result's, its column block and
    both blocks of the right operand stay at 0, and the result's row block index is at most 9. -/
private theorem layer1_index_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the result is some point's. -/
private theorem layer1_index_onto : ∀ q : Fin 10, ∃ t : Fin cfg0.N, win0_2.index t (0 : Fin 2) = q.val :=
  (by decide +kernel : ∀ q : Fin 10, ∃ t : Fin grid0.N, win0_2.index t (0 : Fin 2) = q.val)

/-- Point t's block of the left operand: entry z of the block is entry k of the array, k's row being 10000 · (the
    result's row block index) + z's row and k's column z's column. -/
private theorem layer1_lhs_block (c : Dev nD) (t : Fin cfg0.N) (z : S10000x128.Idx) (k : S100000x128.Idx)
    (hk0 : (k 0).val = win0_2.index t (0 : Fin 2) * 10000 + (z 0).val) (hk1 : (k 1).val = (z 1).val) :
    (iblk0 (V1 m ρ) c 0 t : Vec Ideal S10000x128 .f32) z = (V1 m ρ c main_arg0 : S100000x128.Idx → EReal) k := by
  obtain ⟨e0, e1, -, -, -, -⟩ := layer1_index_facts t
  show V1 m ρ c main_arg0 (((cfg0.win 0).blk t).view.emb z) = V1 m ρ c main_arg0 k
  have h : ((cfg0.win 0).blk t).view.emb z = k := by
    funext a; apply Fin.ext
    match a with
    | ⟨0, _⟩ => show win0_0.index t (0 : Fin 2) * 10000 + 1 * (z 0).val = (k 0).val; omega
    | ⟨1, _⟩ => show win0_0.index t (1 : Fin 2) * 128 + 1 * (z 1).val = (k 1).val; omega
  rw [h]

/-- Point t's block of the right operand is the whole of it. -/
private theorem layer1_rhs_block (c : Dev nD) (t : Fin cfg0.N) (z : S128x64.Idx) (k : S128x64.Idx)
    (hk0 : (k 0).val = (z 0).val) (hk1 : (k 1).val = (z 1).val) :
    (iblk0 (V1 m ρ) c 1 t : Vec Ideal S128x64 .f32) z = (V1 m ρ c main_arg3 : S128x64.Idx → EReal) k := by
  obtain ⟨-, -, e2, e3, -, -⟩ := layer1_index_facts t
  show V1 m ρ c main_arg3 (((cfg0.win 1).blk t).view.emb z) = V1 m ρ c main_arg3 k
  have h : ((cfg0.win 1).blk t).view.emb z = k := by
    funext a; apply Fin.ext
    match a with
    | ⟨0, _⟩ => show win0_1.index t (0 : Fin 2) * 128 + 1 * (z 0).val = (k 0).val; omega
    | ⟨1, _⟩ => show win0_1.index t (1 : Fin 2) * 64 + 1 * (z 1).val = (k 1).val; omega
  rw [h]

/-! ## What a point writes back, and the whole array -/

/-- What point t writes back is block t of the product of the two arrays as the region finds them. -/
private theorem layer1_block_written (c : Dev nD) (t : Fin cfg0.N) :
    (dat0 (V1 m ρ) c).flushed 2 t
      = ((cfg0.win 2).blk t).view.read (Elt Ideal)
          (Cert.Spec.dense (M := 100000) (K := 128) (N := 64) (V1 m ρ c main_arg0) (V1 m ρ c main_arg3)) := by
  show (cfg0.win 2).cut (grid0.coords t) ((dat0 (V1 m ρ) c).after 2 t) = _
  rw [after0_2]
  unfold out0_2
  rw [View.canon_unit_zero layer1_off_zero]
  simp only [View.ld_unit_zero (S := S10000x128) layer1_off_zero, View.ld_unit_zero (S := S128x64) layer1_off_zero]
  obtain ⟨-, -, -, -, e4, -⟩ := layer1_index_facts t
  funext y
  show k0_pay1 (iblk0 (V1 m ρ) c 0 t) (iblk0 (V1 m ρ) c 1 t) ((cfg0.win 2).xinj (grid0.coords t) y)
      = Cert.Spec.dense (M := 100000) (K := 128) (N := 64) (V1 m ρ c main_arg0) (V1 m ρ c main_arg3) (((cfg0.win 2).blk t).view.emb y)
  refine layer1_body_eq_dense (iblk0 (V1 m ρ) c 0 t) (iblk0 (V1 m ρ) c 1 t) (V1 m ρ c main_arg0) (V1 m ρ c main_arg3)
    ((cfg0.win 2).xinj (grid0.coords t) y) (((cfg0.win 2).blk t).view.emb y) (fun q => ?_) (fun q => ?_)
  · refine layer1_lhs_block m ρ c t _ _ ?_ ?_
    · show win0_2.index t (0 : Fin 2) * 10000 + 1 * (y 0).val = win0_2.index t (0 : Fin 2) * 10000 + (y 0).val; omega
    · rfl
  · refine layer1_rhs_block m ρ c t _ _ ?_ ?_
    · rfl
    · show win0_2.index t (1 : Fin 2) * 64 + 1 * (y 1).val = (y 1).val; omega

/-- An index of the result is in point t's block iff each coordinate is in the block's range on its axis. -/
private theorem layer1_mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v4).slice (win0_2.rect t)).set ↔ _
  rw [View.set_slice_whole, Rect.mem_set_unit]
  exact Iff.rfl

/-- The ten row blocks tile the result: row r lies in the block of the point whose block index is r / 10000. -/
private theorem layer1_rows_covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := layer1_index_onto ⟨(i 0).val / 10000, by omega⟩
  have q0 : win0_2.index t (0 : Fin 2) = (i 0).val / 10000 := ht
  obtain ⟨-, -, -, -, e4, -⟩ := layer1_index_facts t
  refine ⟨t, flush0_2 t, ?_⟩
  rw [layer1_mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- So the result array ends holding the product of the two arrays as the region finds them. -/
private theorem layer1_array (c : Dev nD) :
    (dat0 (V1 m ρ) c).arrAt 2 cfg0.N
      = Cert.Spec.dense (M := 100000) (K := 128) (N := 64) (V1 m ρ c main_arg0) (V1 m ρ c main_arg3) :=
  (dat0 (V1 m ρ) c).arrAt_eq_of_cover 2 _ (fun t _ => layer1_block_written m ρ c t) layer1_rows_covered

/-- After the first pallas_call its result array is the plain product x · W1: block t of the result is the product of
    rows 10000·t … of x with W1, and the ten blocks tile the array. -/
theorem v4_value (c : Dev nD) :
    W2 m ρ c (Proc.devRef .tc main_v4)
      = Cert.Spec.dense (M := 100000) (K := 128) (N := 64) (m ((c : Thread nD τ).loc main_arg0)) (m ((c : Thread nD τ).loc main_arg3)) := by
  show W2 m ρ c (Proc.devRef .tc (Pipeline.arrRef spec0 2)) = _
  rw [W2_arr, layer1_array, V1_arg0, V1_arg3]

end Cert.KernelIdeal.Val

end
-- ==== Proof.Region1.lean ====
import proofs.«405414_j17695265259649_3_alg».proof.Proof.Gen.KernelIdeal.Frame
import proofs.«405414_j17695265259649_3_alg».proof.Proof.Spec
import proofs.«405414_j17695265259649_3_alg».proof.Proof.KLeaves
import proofs.«405414_j17695265259649_3_alg».proof.Proof.LibMatmulPlain
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The body of the second product, at an entry -/

/-- The offsets of an access to a whole block are all zero. -/
private theorem layer2_off_zero : (![0, 0] : Fin 2 → Nat) = fun _ => 0 := funext fun a => by fin_cases a <;> rfl

/-- Entry (r, j) of what the body stores: a reshape to the same shape and a change of float format are the identity on
    the extended reals, and the product into a zero accumulator is the sum over the 64 columns q of h[r, q] · w[q, j]. -/
private theorem layer2_body_apply (h : Vec Ideal S10000x64 .f32) (w : Vec Ideal S64x64 .f32) (r : Fin 10000) (j : Fin 64) :
    k1_pay1 h w (ix2 r j) = ∑ q : Fin 64, h (ix2 r q) * w (ix2 q j) := by
  unfold k1_pay1
  refine (Cert.LibMatmulPlain.matmul_plain_apply (M := 10000) (K := 64) (N := 64) (φ₁ := .bf16) (φ₂ := .bf16) _ _ r j).trans ?_
  exact Finset.sum_congr rfl fun q _ => by rw [truncf_apply, truncf_apply, shapeCast_self]

/-- The same at any index z of the block, against entry i of the product H · W of two whole arrays: it is enough that
    row z 0 of the block h is row i 0 of H and column z 1 of the block w is column i 1 of W. -/
private theorem layer2_body_eq_dense (h : Vec Ideal S10000x64 .f32) (w : Vec Ideal S64x64 .f32)
    (H : S100000x64.Idx → EReal) (W : S64x64.Idx → EReal) (z : S10000x64.Idx) (i : S100000x64.Idx)
    (hh : ∀ q : Fin 64, h (ix2 (⟨(z 0).val, (z 0).isLt⟩ : Fin 10000) q) = H (ix2 (⟨(i 0).val, (i 0).isLt⟩ : Fin 100000) q))
    (hw : ∀ q : Fin 64, w (ix2 q (⟨(z 1).val, (z 1).isLt⟩ : Fin 64)) = W (ix2 q (⟨(i 1).val, (i 1).isLt⟩ : Fin 64))) :
    k1_pay1 h w z = Cert.Spec.dense (M := 100000) (K := 64) (N := 64) H W i := by
  have ez : z = ix2 (⟨(z 0).val, (z 0).isLt⟩ : Fin 10000) (⟨(z 1).val, (z 1).isLt⟩ : Fin 64) := eq_ix2 z
  refine (congrArg (k1_pay1 h w) ez).trans ((layer2_body_apply h w _ _).trans ?_)
  unfold Cert.Spec.dense
  exact Finset.sum_congr rfl fun q _ => by rw [hh q, hw q]

/-! ## The blocks of the three windows

Everything about the region is stated at ANY contents V of the buffers at the region's entry; the contents the
program really has there are put in for V only in the last step. -/

section AtEntry
variable (V : (c : Dev nD) → (b : Ref sig .tc) → Buf (Elt Ideal) ((c : Thread nD τ).loc b))

/-- The printed index maps over the grid: the left operand's row block moves with the result's, its column block and
    both blocks of the right operand stay at 0, and the result's row block index is at most 9. -/
private theorem layer2_index_facts : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block of the result is some point's. -/
private theorem layer2_index_onto : ∀ q : Fin 10, ∃ t : Fin cfg1.N, win1_2.index t (0 : Fin 2) = q.val :=
  (by decide +kernel : ∀ q : Fin 10, ∃ t : Fin grid1.N, win1_2.index t (0 : Fin 2) = q.val)

/-- Point t's block of the left operand: entry z of the block is entry k of the array, k's row being 10000 · (the
    result's row block index) + z's row and k's column z's column. -/
private theorem layer2_lhs_block (c : Dev nD) (t : Fin cfg1.N) (z : S10000x64.Idx) (k : S100000x64.Idx)
    (hk0 : (k 0).val = win1_2.index t (0 : Fin 2) * 10000 + (z 0).val) (hk1 : (k 1).val = (z 1).val) :
    (iblk1 V c 0 t : Vec Ideal S10000x64 .f32) z = (V c main_v44 : S100000x64.Idx → EReal) k := by
  obtain ⟨e0, e1, -, -, -, -⟩ := layer2_index_facts t
  show V c main_v44 (((cfg1.win 0).blk t).view.emb z) = V c main_v44 k
  have h : ((cfg1.win 0).blk t).view.emb z = k := by
    funext a; apply Fin.ext
    match a with
    | ⟨0, _⟩ => show win1_0.index t (0 : Fin 2) * 10000 + 1 * (z 0).val = (k 0).val; omega
    | ⟨1, _⟩ => show win1_0.index t (1 : Fin 2) * 64 + 1 * (z 1).val = (k 1).val; omega
  rw [h]

/-- Point t's block of the right operand is the whole of it. -/
private theorem layer2_rhs_block (c : Dev nD) (t : Fin cfg1.N) (z : S64x64.Idx) (k : S64x64.Idx)
    (hk0 : (k 0).val = (z 0).val) (hk1 : (k 1).val = (z 1).val) :
    (iblk1 V c 1 t : Vec Ideal S64x64 .f32) z = (V c main_arg5 : S64x64.Idx → EReal) k := by
  obtain ⟨-, -, e2, e3, -, -⟩ := layer2_index_facts t
  show V c main_arg5 (((cfg1.win 1).blk t).view.emb z) = V c main_arg5 k
  have h : ((cfg1.win 1).blk t).view.emb z = k := by
    funext a; apply Fin.ext
    match a with
    | ⟨0, _⟩ => show win1_1.index t (0 : Fin 2) * 64 + 1 * (z 0).val = (k 0).val; omega
    | ⟨1, _⟩ => show win1_1.index t (1 : Fin 2) * 64 + 1 * (z 1).val = (k 1).val; omega
  rw [h]

/-! ## What a point writes back, and the whole array -/

/-- What point t writes back is block t of the product of the two arrays as the region finds them. -/
private theorem layer2_block_written (c : Dev nD) (t : Fin cfg1.N) :
    (dat1 V c).flushed 2 t
      = ((cfg1.win 2).blk t).view.read (Elt Ideal)
          (Cert.Spec.dense (M := 100000) (K := 64) (N := 64) (V c main_v44) (V c main_arg5)) := by
  show (cfg1.win 2).cut (grid1.coords t) ((dat1 V c).after 2 t) = _
  rw [after1_2]
  unfold out1_2
  rw [View.canon_unit_zero layer2_off_zero]
  simp only [View.ld_unit_zero (S := S10000x64) layer2_off_zero, View.ld_unit_zero (S := S64x64) layer2_off_zero]
  obtain ⟨-, -, -, -, e4, -⟩ := layer2_index_facts t
  funext y
  show k1_pay1 (iblk1 V c 0 t) (iblk1 V c 1 t) ((cfg1.win 2).xinj (grid1.coords t) y)
      = Cert.Spec.dense (M := 100000) (K := 64) (N := 64) (V c main_v44) (V c main_arg5) (((cfg1.win 2).blk t).view.emb y)
  refine layer2_body_eq_dense (iblk1 V c 0 t) (iblk1 V c 1 t) (V c main_v44) (V c main_arg5)
    ((cfg1.win 2).xinj (grid1.coords t) y) (((cfg1.win 2).blk t).view.emb y) (fun q => ?_) (fun q => ?_)
  · refine layer2_lhs_block V c t _ _ ?_ ?_
    · show win1_2.index t (0 : Fin 2) * 10000 + 1 * (y 0).val = win1_2.index t (0 : Fin 2) * 10000 + (y 0).val; omega
    · rfl
  · refine layer2_rhs_block V c t _ _ ?_ ?_
    · rfl
    · show win1_2.index t (1 : Fin 2) * 64 + 1 * (y 1).val = (y 1).val; omega

/-- An index of the result is in point t's block iff each coordinate is in the block's range on its axis. -/
private theorem layer2_mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v45).slice (win1_2.rect t)).set ↔ _
  rw [View.set_slice_whole, Rect.mem_set_unit]
  exact Iff.rfl

/-- The ten row blocks tile the result: row r lies in the block of the point whose block index is r / 10000. -/
private theorem layer2_rows_covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := layer2_index_onto ⟨(i 0).val / 10000, by omega⟩
  have q0 : win1_2.index t (0 : Fin 2) = (i 0).val / 10000 := ht
  obtain ⟨-, -, -, -, e4, -⟩ := layer2_index_facts t
  refine ⟨t, flush1_2 t, ?_⟩
  rw [layer2_mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- So the result array ends holding the product of the two arrays as the region finds them. -/
private theorem layer2_array (c : Dev nD) :
    (dat1 V c).arrAt 2 cfg1.N
      = Cert.Spec.dense (M := 100000) (K := 64) (N := 64) (V c main_v44) (V c main_arg5) :=
  (dat1 V c).arrAt_eq_of_cover 2 _ (fun t _ => layer2_block_written V c t) layer2_rows_covered

end AtEntry

/-- After the second pallas_call its result array is the plain product h · W2 of the first layer's output h (what the
    host stretch before it left in its operand buffer) with W2. -/
theorem v45_value (c : Dev nD) :
    W5 m ρ c (Proc.devRef .tc main_v45)
      = Cert.Spec.dense (M := 100000) (K := 64) (N := 64) (W4 m ρ c (Proc.devRef .tc main_v44)) (m ((c : Thread nD τ).loc main_arg5)) := by
  show W5 m ρ c (Proc.devRef .tc (Pipeline.arrRef spec1 2))
      = Cert.Spec.dense (M := 100000) (K := 64) (N := 64) (V4 m ρ c main_v44) (m ((c : Thread nD τ).loc main_arg5))
  rw [W5_arr, layer2_array (V4 m ρ) c, V4_arg5]

end Cert.KernelIdeal.Val

end
-- ==== Proof.Glue1.lean ====
import proofs.«405414_j17695265259649_3_alg».proof.Proof.Gen.KernelIdeal.Frame
import proofs.«405414_j17695265259649_3_alg».proof.Proof.Spec
import proofs.«405414_j17695265259649_3_alg».proof.Proof.KLeaves

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- Over any contents at the stretch's entry, at any float family: the 48 operations of the first layer and the 3 of its
    relu compose, one for one, to the layer of the four buffers they read (the node features, the two rows of the edge
    list, the bias). -/
private theorem v44_of {F : FTy → Type} [FloatOps F] (V : Valuation τ sig (Elt F)) :
    StableHlo.after hostOps1_1 (StableHlo.after hostOps1 V) (Proc.devRef .tc main_v44)
      = Cert.Spec.layer (F := F) (V (Proc.devRef .tc main_v4)) (V (Proc.devRef .tc main_v1)) (V (Proc.devRef .tc main_v3))
          (V (Proc.devRef .tc main_arg4)) := by
  after_results_simp
  rfl

variable (m : (ℓ : Loc nD τ sig) → Buf (Elt Ideal) ℓ) (ρ : Dev nD → PrngReg)

/-- The host stretch between the first two pallas_calls is the graph-convolution layer of the first product. -/
theorem v44_value (c : Dev nD) :
    W4 m ρ c (Proc.devRef .tc main_v44)
      = Cert.Spec.layer (F := Ideal) (W2 m ρ c (Proc.devRef .tc main_v4))
          (Cert.Spec.srcOf (F := Ideal) (m ((c : Thread nD τ).loc main_arg1))) (Cert.Spec.dstOf (F := Ideal) (m ((c : Thread nD τ).loc main_arg1)))
          (m ((c : Thread nD τ).loc main_arg4)) := by
  refine (v44_of (W2 m ρ c)).trans ?_
  rw [W2_v1 m ρ c, W2_v3 m ρ c, W2_arg4 m ρ c]

end Cert.KernelIdeal.Val

end
-- ==== Proof.Glue2.lean ====
import proofs.«405414_j17695265259649_3_alg».proof.Proof.Gen.KernelIdeal.Frame
import proofs.«405414_j17695265259649_3_alg».proof.Proof.Spec
import proofs.«405414_j17695265259649_3_alg».proof.Proof.KLeaves

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-- Over any contents at the stretch's entry, at any float family: the 48 operations of the second layer and the 3 of its
    relu compose, one for one, to the layer of the four buffers they read (the node features, the two rows of the edge
    list, the bias). -/
private theorem v85_of {F : FTy → Type} [FloatOps F] (V : Valuation τ sig (Elt F)) :
    StableHlo.after hostOps2_1 (StableHlo.after hostOps2 V) (Proc.devRef .tc main_v85)
      = Cert.Spec.layer (F := F) (V (Proc.devRef .tc main_v45)) (V (Proc.devRef .tc main_v1)) (V (Proc.devRef .tc main_v3))
          (V (Proc.devRef .tc main_arg6)) := by
  after_results_simp
  rfl

variable (m : (ℓ : Loc nD τ sig) → Buf (Elt Ideal) ℓ) (ρ : Dev nD → PrngReg)

/-- The host stretch after the second pallas_call is the graph-convolution layer of the second product. -/
theorem v85_value (c : Dev nD) :
    W7 m ρ c (Proc.devRef .tc main_v85)
      = Cert.Spec.layer (F := Ideal) (W5 m ρ c (Proc.devRef .tc main_v45))
          (Cert.Spec.srcOf (F := Ideal) (m ((c : Thread nD τ).loc main_arg1))) (Cert.Spec.dstOf (F := Ideal) (m ((c : Thread nD τ).loc main_arg1)))
          (m ((c : Thread nD τ).loc main_arg6)) := by
  refine (v85_of (W5 m ρ c)).trans ?_
  rw [W5_v1 m ρ c, W5_v3 m ρ c, W5_arg6 m ρ c]

end Cert.KernelIdeal.Val

end
-- ==== Proof.LibKeepdims.lean ====
/-
  A reduced axis kept as a unit axis, read by coordinates: the two layout steps that carry a per-row quantity
  (a row's maximum, a row's sum) back over the row.

  * an [a] vector cast to a column [a, 1] reads, at (i, u), the vector at i (the unit coordinate u is 0);
  * a column [a, 1] broadcast along its unit axis to [a, b] reads, at (i, j), the column at (i, 0).

  Both are the library's general reading lemmas (a cast keeps the row-major position; a broadcast reads 0 on a unit
  axis) instantiated at these small shapes, with every index written by its coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.EdgeScoreBlock.lean ====
/-
  One block of edge scores, read at a lane.

  On the nine blocks it loads — hs, hd : [64, 16000] (node features of the block's edges, features along rows),
  ea : [1, 16000], w3a, w3b : [64, 64], w3c, b3 : [64, 1], w4 : [1, 64], b4 : [1, 1] — the body of the third call leaves the row

      w4 · relu(w3a·hs + w3b·hd + w3c·ea + b3) + b4,

  whose entry (0, l) is
      sum_j w4[0, j] · max(((sum_k w3a[j, k]·hs[k, l]) + (sum_k w3b[j, k]·hd[k, l]) + (sum_k w3c[j, k]·ea[k, l])) + b3[j, 0], 0) + b4[0, 0].
  Each of the four products is a plain matrix product accumulated into zero, a change of float format is the identity on
  the extended reals, a cast to the same shape is the identity, and the two broadcasts read their unit axes at 0.
-/
import proofs.«405414_j17695265259649_3_alg».proof.Proof.Gen.KernelIdeal.Skeleton
import proofs.«405414_j17695265259649_3_alg».proof.Proof.LibMatmulPlain
import proofs.«405414_j17695265259649_3_alg».proof.Proof.LibKeepdims

set_option maxRecDepth 16384

noncomputable section

namespace Cert.KernelIdeal.EdgeScoreBlock

open Cert.KernelIdeal Cert.KernelIdeal.Gen
open Idealize.ShloMosaic Idealize.ShloMosaic.ValueIdx
open scoped BigOperators

/-- The [64, 64] by [64, 16000] product into zero at entry (i, l): the sum over q of a[i, q] · x[q, l]. -/
theorem mm_64_64 {φ₁ φ₂ : FTy} (a : FVec Ideal S64x64 φ₁) (x : FVec Ideal S64x16000 φ₂) (i : Fin 64) (l : Fin 16000) :
    matmul dot_S64x64_S64x16000_S64x16000_1_0_0_1_n_n none a x (constant S64x16000 .f32 0x00000000#32) (ix2 i l)
      = ∑ q : Fin 64, a (ix2 i q) * x (ix2 q l) :=
  Cert.LibMatmulPlain.matmul_plain_apply (M := 64) (K := 64) (N := 16000) a x i l

/-- The [64, 1] by [1, 16000] product into zero at entry (i, l): the one-term sum over q of a[i, q] · x[q, l]. -/
theorem mm_64_1 {φ₁ φ₂ : FTy} (a : FVec Ideal S64x1 φ₁) (x : FVec Ideal S1x16000 φ₂) (i : Fin 64) (l : Fin 16000) :
    matmul dot_S64x1_S1x16000_S64x16000_1_0_0_1_n_n none a x (constant S64x16000 .f32 0x00000000#32) (ix2 i l)
      = ∑ q : Fin 1, a (ix2 i q) * x (ix2 q l) :=
  Cert.LibMatmulPlain.matmul_plain_apply (M := 64) (K := 1) (N := 16000) a x i l

/-- The [1, 64] by [64, 16000] product into zero at entry (i, l): the sum over q of a[i, q] · x[q, l]. -/
theorem mm_1_64 {φ₁ φ₂ : FTy} (a : FVec Ideal S1x64 φ₁) (x : FVec Ideal S64x16000 φ₂) (i : Fin 1) (l : Fin 16000) :
    matmul dot_S1x64_S64x16000_S1x16000_1_0_0_1_n_n none a x (constant S1x16000 .f32 0x00000000#32) (ix2 i l)
      = ∑ q : Fin 64, a (ix2 i q) * x (ix2 q l) :=
  Cert.LibMatmulPlain.matmul_plain_apply (M := 1) (K := 64) (N := 16000) a x i l

/-- The bias column [64, 1] spread over the 16000 lanes reads, at (j, l), its entry of row j. -/
theorem bias_col_apply (v : FVec Ideal S64x1 .f32) (j : Fin 64) (l : Fin 16000) :
    broadcastTo S64x16000 v broadcasts_S64x1_S64x16000 (ix2 j l) = v (ix2 j (0 : Fin 1)) :=
  Cert.LibKeepdims.broadcastTo_a1_ab_apply v _ j l

/-- The [1, 1] bias spread over the row reads its one entry. -/
theorem bias_one_apply (v : FVec Ideal S1x1 .f32) (l : Fin 16000) :
    broadcastTo S1x16000 v broadcasts_S1x1_S1x16000 (ix2 (0 : Fin 1) l) = v (ix2 (0 : Fin 1) (0 : Fin 1)) := by
  refine broadcastTo_apply v _ (ix2 (0 : Fin 1) l) (ix2 (0 : Fin 1) (0 : Fin 1)) fun ax => ?_
  match ax with
  | ⟨0, _⟩ => rfl
  | ⟨1, _⟩ => rfl

/-- Entry (0, l) of the row the body stores, over its nine loaded blocks. -/
theorem row_apply (x0 x1 : Vec Ideal S64x16000 .f32) (x2 : Vec Ideal S1x16000 .f32) (x3 x4 : Vec Ideal S64x64 .f32)
    (x5 x6 : Vec Ideal S64x1 .f32) (x7 : Vec Ideal S1x64 .f32) (x8 : Vec Ideal S1x1 .f32) (l : Fin 16000) :
    k2_pay1 (k2_pay2 x0 x1 x3 x4 x5 x2 x6 x7) (k2_pay3 x8) (ix2 (0 : Fin 1) l)
      = (∑ j : Fin 64, x7 (ix2 (0 : Fin 1) j) *
          max (((∑ k : Fin 64, x3 (ix2 j k) * x0 (ix2 k l))
                + (∑ k : Fin 64, x4 (ix2 j k) * x1 (ix2 k l))
                + (∑ k : Fin 1, x5 (ix2 j k) * x2 (ix2 k l)))
              + x6 (ix2 j (0 : Fin 1))) (Ideal.ofBits .f32 0x00000000#32))
        + x8 (ix2 (0 : Fin 1) (0 : Fin 1)) := by
  unfold k2_pay1 k2_pay2 k2_pay3
  simp only [addf_apply, bias_one_apply, shapeCast_self, mm_1_64, truncf_apply, maximumf_apply, bias_col_apply,
    mm_64_64, mm_64_1, broadcast_apply]
  rfl

end Cert.KernelIdeal.EdgeScoreBlock

end
-- ==== Proof.Region2.lean ====
/-
  The third call's result row, read at an entry.

  The call runs over a grid of 100 points. At point t the three edge-indexed operands (source features, target features,
  edge attributes) and the result are staged at block (0, t), 16000 edges wide; the six weight operands are staged whole.
  The body leaves in the result's block the row  w4 · relu(w3a·hs + w3b·hd + w3c·ea + b3) + b4  of its loaded blocks, so
  at lane l the score of edge 16000·t + l over the whole operand arrays. The hundred blocks tile the row (edge e lies in
  the block of point e / 16000) and every point writes its block back, so the array ends holding the row of edge scores.
-/
import proofs.«405414_j17695265259649_3_alg».proof.Proof.Gen.KernelIdeal.Frame
import proofs.«405414_j17695265259649_3_alg».proof.Proof.SpecEdge
import proofs.«405414_j17695265259649_3_alg».proof.Proof.LibMatmulPlain
import proofs.«405414_j17695265259649_3_alg».proof.Proof.LibKeepdims
import proofs.«405414_j17695265259649_3_alg».proof.Proof.EdgeScoreBlock
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

namespace EdgeRow

/-! ## At any contents `V` of the buffers when the call is entered -/

section AtEntry
variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The whole result row as one function of the nine arrays the call finds: entry (0, e) is the score of edge e. -/
abbrev rowOf (c : Dev nD) : S1x1600000.Idx → Elt Ideal .f32 := fun i =>
  Cert.SpecEdge.edgeKer (V c main_v87) (V c main_v88) (V c main_v89) (V c main_v93) (V c main_v94)
    (V c main_v95) (V c main_v96) (V c main_v97) (V c main_v98) ⟨(i 1).val, (i 1).isLt⟩

/-- The printed index maps over the grid: the three edge-indexed operands and the result sit at block (0, t) at point t. -/
theorem moving_index : ∀ t : Fin cfg2.N,
    (win2_0.index t (0 : Fin 2) = 0 ∧ win2_0.index t (1 : Fin 2) = t.val)
    ∧ (win2_1.index t (0 : Fin 2) = 0 ∧ win2_1.index t (1 : Fin 2) = t.val)
    ∧ (win2_2.index t (0 : Fin 2) = 0 ∧ win2_2.index t (1 : Fin 2) = t.val)
    ∧ (win2_9.index t (0 : Fin 2) = 0 ∧ win2_9.index t (1 : Fin 2) = t.val) :=
  (by decide +kernel : ∀ t : Fin grid2.N, _)

/-- The six weight operands sit at block (0, 0) at every point. -/
theorem fixed_index : ∀ t : Fin cfg2.N,
    (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-- Block t of the source features is columns 16000·t … of the array: entry (k, l) is entry (k, 16000·t + l). -/
theorem hs_block (c : Dev nD) (t : Fin cfg2.N) (k : Fin 64) (l : Fin 16000) (e : Fin 1600000) (he : e.val = t.val * 16000 + l.val) :
    (iblk2 V c 0 t : Vec Ideal S64x16000 .f32) (ix2 k l) = (V c main_v87 : S64x1600000.Idx → Elt Ideal .f32) (ix2 k e) := by
  obtain ⟨h0, h1, h2, h9⟩ := moving_index t
  unfold iblk2
  rw [View.read_apply]
  show V c main_v87 _ = V c main_v87 _
  congr 1
  funext a
  apply Fin.ext
  match a with
  | ⟨0, _⟩ => show win2_0.index t (0 : Fin 2) * 64 + 1 * k.val = k.val; rw [h0.1]; omega
  | ⟨1, _⟩ => show win2_0.index t (1 : Fin 2) * 16000 + 1 * l.val = e.val; rw [h0.2, he]; omega

/-- Block t of the target features, likewise. -/
theorem hd_block (c : Dev nD) (t : Fin cfg2.N) (k : Fin 64) (l : Fin 16000) (e : Fin 1600000) (he : e.val = t.val * 16000 + l.val) :
    (iblk2 V c 1 t : Vec Ideal S64x16000 .f32) (ix2 k l) = (V c main_v88 : S64x1600000.Idx → Elt Ideal .f32) (ix2 k e) := by
  obtain ⟨h0, h1, h2, h9⟩ := moving_index t
  unfold iblk2
  rw [View.read_apply]
  show V c main_v88 _ = V c main_v88 _
  congr 1
  funext a
  apply Fin.ext
  match a with
  | ⟨0, _⟩ => show win2_1.index t (0 : Fin 2) * 64 + 1 * k.val = k.val; rw [h1.1]; omega
  | ⟨1, _⟩ => show win2_1.index t (1 : Fin 2) * 16000 + 1 * l.val = e.val; rw [h1.2, he]; omega

/-- Block t of the edge attributes, likewise. -/
theorem ea_block (c : Dev nD) (t : Fin cfg2.N) (k : Fin 1) (l : Fin 16000) (e : Fin 1600000) (he : e.val = t.val * 16000 + l.val) :
    (iblk2 V c 2 t : Vec Ideal S1x16000 .f32) (ix2 k l) = (V c main_v89 : S1x1600000.Idx → Elt Ideal .f32) (ix2 k e) := by
  obtain ⟨h0, h1, h2, h9⟩ := moving_index t
  unfold iblk2
  rw [View.read_apply]
  show V c main_v89 _ = V c main_v89 _
  congr 1
  funext a
  apply Fin.ext
  match a with
  | ⟨0, _⟩ => show win2_2.index t (0 : Fin 2) * 1 + 1 * k.val = k.val; rw [h2.1]; omega
  | ⟨1, _⟩ => show win2_2.index t (1 : Fin 2) * 16000 + 1 * l.val = e.val; rw [h2.2, he]; omega

/-- A weight operand is fetched whole at every point: its block is the array. -/
theorem w3a_block (c : Dev nD) (t : Fin cfg2.N) (a : Fin 64) (b : Fin 64) :
    (iblk2 V c 3 t : Vec Ideal S64x64 .f32) (ix2 a b) = (V c main_v93 : S64x64.Idx → Elt Ideal .f32) (ix2 a b) := by
  obtain ⟨h3, h4, h5, h6, h7, h8⟩ := fixed_index t
  unfold iblk2
  rw [View.read_apply]
  show V c main_v93 _ = V c main_v93 _
  congr 1
  funext ax
  apply Fin.ext
  match ax with
  | ⟨0, _⟩ => show win2_3.index t (0 : Fin 2) * 64 + 1 * a.val = a.val; rw [h3.1]; omega
  | ⟨1, _⟩ => show win2_3.index t (1 : Fin 2) * 64 + 1 * b.val = b.val; rw [h3.2]; omega

/-- The second weight block, whole. -/
theorem w3b_block (c : Dev nD) (t : Fin cfg2.N) (a : Fin 64) (b : Fin 64) :
    (iblk2 V c 4 t : Vec Ideal S64x64 .f32) (ix2 a b) = (V c main_v94 : S64x64.Idx → Elt Ideal .f32) (ix2 a b) := by
  obtain ⟨h3, h4, h5, h6, h7, h8⟩ := fixed_index t
  unfold iblk2
  rw [View.read_apply]
  show V c main_v94 _ = V c main_v94 _
  congr 1
  funext ax
  apply Fin.ext
  match ax with
  | ⟨0, _⟩ => show win2_4.index t (0 : Fin 2) * 64 + 1 * a.val = a.val; rw [h4.1]; omega
  | ⟨1, _⟩ => show win2_4.index t (1 : Fin 2) * 64 + 1 * b.val = b.val; rw [h4.2]; omega

/-- The attribute's weight column, whole. -/
theorem w3c_block (c : Dev nD) (t : Fin cfg2.N) (a : Fin 64) (b : Fin 1) :
    (iblk2 V c 5 t : Vec Ideal S64x1 .f32) (ix2 a b) = (V c main_v95 : S64x1.Idx → Elt Ideal .f32) (ix2 a b) := by
  obtain ⟨h3, h4, h5, h6, h7, h8⟩ := fixed_index t
  unfold iblk2
  rw [View.read_apply]
  show V c main_v95 _ = V c main_v95 _
  congr 1
  funext ax
  apply Fin.ext
  match ax with
  | ⟨0, _⟩ => show win2_5.index t (0 : Fin 2) * 64 + 1 * a.val = a.val; rw [h5.1]; omega
  | ⟨1, _⟩ => show win2_5.index t (1 : Fin 2) * 1 + 1 * b.val = b.val; rw [h5.2]; omega

/-- The hidden bias column, whole. -/
theorem b3_block (c : Dev nD) (t : Fin cfg2.N) (a : Fin 64) (b : Fin 1) :
    (iblk2 V c 6 t : Vec Ideal S64x1 .f32) (ix2 a b) = (V c main_v96 : S64x1.Idx → Elt Ideal .f32) (ix2 a b) := by
  obtain ⟨h3, h4, h5, h6, h7, h8⟩ := fixed_index t
  unfold iblk2
  rw [View.read_apply]
  show V c main_v96 _ = V c main_v96 _
  congr 1
  funext ax
  apply Fin.ext
  match ax with
  | ⟨0, _⟩ => show win2_6.index t (0 : Fin 2) * 64 + 1 * a.val = a.val; rw [h6.1]; omega
  | ⟨1, _⟩ => show win2_6.index t (1 : Fin 2) * 1 + 1 * b.val = b.val; rw [h6.2]; omega

/-- The output weight row, whole. -/
theorem w4_block (c : Dev nD) (t : Fin cfg2.N) (a : Fin 1) (b : Fin 64) :
    (iblk2 V c 7 t : Vec Ideal S1x64 .f32) (ix2 a b) = (V c main_v97 : S1x64.Idx → Elt Ideal .f32) (ix2 a b) := by
  obtain ⟨h3, h4, h5, h6, h7, h8⟩ := fixed_index t
  unfold iblk2
  rw [View.read_apply]
  show V c main_v97 _ = V c main_v97 _
  congr 1
  funext ax
  apply Fin.ext
  match ax with
  | ⟨0, _⟩ => show win2_7.index t (0 : Fin 2) * 1 + 1 * a.val = a.val; rw [h7.1]; omega
  | ⟨1, _⟩ => show win2_7.index t (1 : Fin 2) * 64 + 1 * b.val = b.val; rw [h7.2]; omega

/-- The output bias, whole. -/
theorem b4_block (c : Dev nD) (t : Fin cfg2.N) (a : Fin 1) (b : Fin 1) :
    (iblk2 V c 8 t : Vec Ideal S1x1 .f32) (ix2 a b) = (V c main_v98 : S1x1.Idx → Elt Ideal .f32) (ix2 a b) := by
  obtain ⟨h3, h4, h5, h6, h7, h8⟩ := fixed_index t
  unfold iblk2
  rw [View.read_apply]
  show V c main_v98 _ = V c main_v98 _
  congr 1
  funext ax
  apply Fin.ext
  match ax with
  | ⟨0, _⟩ => show win2_8.index t (0 : Fin 2) * 1 + 1 * a.val = a.val; rw [h8.1]; omega
  | ⟨1, _⟩ => show win2_8.index t (1 : Fin 2) * 1 + 1 * b.val = b.val; rw [h8.2]; omega

/-- The row the body leaves at point t, at lane l, is the score of edge 16000·t + l. -/
theorem block_row (c : Dev nD) (t : Fin cfg2.N) (l : Fin 16000) (e : Fin 1600000) (he : e.val = t.val * 16000 + l.val) :
    (k2_pay1 (k2_pay2 (iblk2 V c 0 t) (iblk2 V c 1 t) (iblk2 V c 3 t) (iblk2 V c 4 t) (iblk2 V c 5 t) (iblk2 V c 2 t)
        (iblk2 V c 6 t) (iblk2 V c 7 t)) (k2_pay3 (iblk2 V c 8 t)) : Vec Ideal S1x16000 .f32) (ix2 (0 : Fin 1) l)
      = Cert.SpecEdge.edgeKer (V c main_v87) (V c main_v88) (V c main_v89) (V c main_v93) (V c main_v94)
          (V c main_v95) (V c main_v96) (V c main_v97) (V c main_v98) e := by
  refine (EdgeScoreBlock.row_apply (iblk2 V c 0 t) (iblk2 V c 1 t) (iblk2 V c 2 t) (iblk2 V c 3 t) (iblk2 V c 4 t)
    (iblk2 V c 5 t) (iblk2 V c 6 t) (iblk2 V c 7 t) (iblk2 V c 8 t) l).trans ?_
  unfold Cert.SpecEdge.edgeKer
  simp only [hs_block V c t _ l e he, hd_block V c t _ l e he, ea_block V c t _ l e he, w3a_block V c t, w3b_block V c t,
    w3c_block V c t, b3_block V c t, w4_block V c t, b4_block V c t]

/-- What point t writes back is block t of the row of edge scores. -/
theorem flushed_eq (c : Dev nD) (t : Fin cfg2.N) :
    (dat2 V c).flushed 9 t = ((cfg2.win 9).blk t).view.read (Elt Ideal) (rowOf V c) := by
  show (cfg2.win 9).cut (grid2.coords t) ((dat2 V c).after 9 t) = _
  rw [after2_9]
  unfold out2_9
  rw [View.canon_unit_zero zero_offsets]
  simp only [View.ld_unit_zero (S := S64x16000) zero_offsets, View.ld_unit_zero (S := S64x64) zero_offsets,
    View.ld_unit_zero (S := S64x1) zero_offsets, View.ld_unit_zero (S := S1x16000) zero_offsets,
    View.ld_unit_zero (S := S1x64) zero_offsets, View.ld_unit_zero (S := S1x1) zero_offsets]
  show (k2_pay1 (k2_pay2 (iblk2 V c 0 t) (iblk2 V c 1 t) (iblk2 V c 3 t) (iblk2 V c 4 t) (iblk2 V c 5 t) (iblk2 V c 2 t)
        (iblk2 V c 6 t) (iblk2 V c 7 t)) (k2_pay3 (iblk2 V c 8 t)) : Vec Ideal S1x16000 .f32)
      = fun y : S1x16000.Idx => rowOf V c (((cfg2.win 9).blk t).view.emb y)
  funext y
  obtain ⟨u, l, rfl⟩ : ∃ (u : Fin 1) (l : Fin 16000), y = ix2 u l := ⟨y 0, y 1, eq_ix2 y⟩
  obtain rfl : u = 0 := Subsingleton.elim _ _
  refine block_row V c t l _ ?_
  obtain ⟨h0, h1, h2, h9⟩ := moving_index t
  show win2_9.index t (1 : Fin 2) * 16000 + 1 * l.val = t.val * 16000 + l.val
  rw [h9.2]; omega

/-- An entry of the row is in point t's block iff each coordinate is in the block's range on its axis. -/
theorem mem_block (t : Fin cfg2.N) (i : S1x1600000.Idx) :
    i ∈ ((cfg2.win 9).blk t).view.set ↔ ∀ a : Fin 2, win2_9.index t a * S1x16000.size a ≤ (i a).val ∧ (i a).val < win2_9.index t a * S1x16000.size a + S1x16000.size a := by
  show i ∈ ((View.whole main_v99).slice (win2_9.rect t)).set ↔ _
  rw [View.set_slice_whole, Rect.mem_set_unit]
  exact Iff.rfl

/-- The hundred blocks tile the row: entry (0, e) is in the block of point e / 16000, and every point writes back. -/
theorem covered (i : S1x1600000.Idx) :
    ∃ t : Fin cfg2.N, (cfg2.win 9).flush t = true ∧ i ∈ ((cfg2.win 9).blk t).view.set := by
  have hi0 : (i 0).val < 1 := (i 0).isLt
  have hi1 : (i 1).val < 1600000 := (i 1).isLt
  have hN : cfg2.N = 100 := N_2
  obtain ⟨t, ht⟩ : ∃ t : Fin cfg2.N, t.val = (i 1).val / 16000 := ⟨⟨(i 1).val / 16000, by rw [hN]; omega⟩, rfl⟩
  obtain ⟨h0, h1, h2, h9⟩ := moving_index t
  refine ⟨t, flush2_9 t, ?_⟩
  rw [mem_block]
  intro a
  match a with
  | ⟨0, _⟩ =>
    show win2_9.index t (0 : Fin 2) * 1 ≤ (i 0).val ∧ (i 0).val < win2_9.index t (0 : Fin 2) * 1 + 1
    rw [h9.1]; omega
  | ⟨1, _⟩ =>
    show win2_9.index t (1 : Fin 2) * 16000 ≤ (i 1).val ∧ (i 1).val < win2_9.index t (1 : Fin 2) * 16000 + 16000
    rw [h9.2, ht]; omega

/-- The result array after the call is the row of edge scores over the arrays the call found. -/
theorem final_row (c : Dev nD) : (dat2 V c).arrAt 9 cfg2.N = rowOf V c :=
  (dat2 V c).arrAt_eq_of_cover 9 (rowOf V c) (fun t _ => flushed_eq V c t) covered

end AtEntry

end EdgeRow

/-- After the third pallas_call, entry (0, e) of its result row is the edge score of edge e over the nine operand
    arrays as the call finds them: block t of the result holds edges 16000·t …, and the hundred blocks tile the row. -/
theorem v99_value (c : Dev nD) (e : Fin 1600000) :
    W12 m ρ c (Proc.devRef .tc main_v99) (ix2 (0 : Fin 1) e)
      = Cert.SpecEdge.edgeKer (V11 m ρ c main_v87) (V11 m ρ c main_v88) (V11 m ρ c main_v89) (V11 m ρ c main_v93) (V11 m ρ c main_v94)
          (V11 m ρ c main_v95) (V11 m ρ c main_v96) (V11 m ρ c main_v97) (V11 m ρ c main_v98) e :=
  congrFun ((W12_arr m ρ c 9).trans (EdgeRow.final_row (V11 m ρ) c)) (ix2 (0 : Fin 1) e)

end Cert.KernelIdeal.Val

end
-- ==== Proof.LibGatherCols.lean ====
import Idealize.ShloMosaic.PureOps
import Idealize.ShloMosaic.Lib.ValueIdx
noncomputable section

namespace Cert.LibGatherCols
open Idealize.ShloMosaic Idealize.ShloMosaic.ValueIdx

/-! ## Gathering whole columns of a table

A table `x : [C, N]` is gathered by a column of index words `idx : [M, 1]`: the dimension numbers collapse the
table's axis 1 and let the one component of each start index address it, keep the table's axis 0 whole as the
result's offset axis 0, and have no batching axes. Result element `(k, r)` is then the table at `(k, col)`, where
`col` is the `r`-th index word read as a signed integer and clamped into `[0, N − 1]`.

The operand index of a gather is, on each operand axis, a clamped start plus a batching coordinate plus an offset
coordinate. For these dimension numbers the three summands are computed one by one below: on axis 1 the start is the
clamped index word and the other two vanish (the axis is collapsed); on axis 0 the start and the batching coordinate
vanish (the axis is not addressed by the start index) and the offset coordinate is the result's row. -/

section Cols
variable {α : Type}

/-- The dimension numbers of a column gather, for a table `[C, N]`, start indices `[M, 1]` and a result `[C, M]`. -/
abbrev colsDims (C N M : Nat)
    (wf : GatherDims.WF ⟨2, ![C, N]⟩ ⟨2, ![M, 1]⟩ ⟨2, ![C, M]⟩ [0] [1] [] [1] [] 1 ![C, 1]) :
    GatherDims ⟨2, ![C, N]⟩ ⟨2, ![M, 1]⟩ ⟨2, ![C, M]⟩ where
  offsetDims := [0]
  collapsedSliceDims := [1]
  operandBatchingDims := []
  startIndicesBatchingDims := []
  startIndexMap := [1]
  indexVectorDim := 1
  sliceSizes := ![C, 1]
  wf := wf

variable {C N M w : Nat}
  (wf : GatherDims.WF ⟨2, ![C, N]⟩ ⟨2, ![M, 1]⟩ ⟨2, ![C, M]⟩ [0] [1] [] [1] [] 1 ![C, 1])

/-- There are no batching axes, so the batching coordinate is zero on both table axes. -/
theorem cols_batch (j : (⟨2, ![C, M]⟩ : Shape).Idx) (a : Fin 2) : (colsDims C N M wf).batchCoord j a = 0 :=
  GatherDims.batchCoord_eq_zero _ _ _ List.not_mem_nil

/-- Axis 1 of the table is collapsed: it is not among the kept axes, so its offset coordinate is zero. -/
theorem cols_off1 (j : (⟨2, ![C, M]⟩ : Shape).Idx) : (colsDims C N M wf).offCoord j 1 = 0 :=
  GatherDims.offCoord_eq_zero _ _ _ fun h => ((GatherDims.mem_sKept _ _).1 h).1 (List.mem_singleton.2 rfl)

/-- Axis 0 of the table is not addressed by the start index, so the slice starts at row zero. -/
theorem cols_start0 (j : (⟨2, ![C, M]⟩ : Shape).Idx) (idx : IVec ⟨2, ![M, 1]⟩ w) :
    (colsDims C N M wf).start j idx 0 = 0 := by
  unfold GatherDims.start
  exact dif_neg (show (0 : Fin 2) ∉ [1] by decide)

/-- Axis 0 is the only kept axis of the table, in position 0, and the result's offset axis in that position is its
    axis 0: the offset coordinate is the result's row. -/
theorem cols_off0 (j : (⟨2, ![C, M]⟩ : Shape).Idx) : (colsDims C N M wf).offCoord j 0 = (j 0).val := by
  unfold GatherDims.offCoord
  rw [dif_pos ((GatherDims.mem_sKept _ _).2 ⟨show (0 : Fin 2) ∉ [1] by decide, List.not_mem_nil⟩)]
  rfl

/-- Axis 1 is component 0 of the start index. That component is read at the start-indices position
    `(j 1, 0)` — the result's batch coordinate, and 0 on the index vector's axis —, signed, and clamped to
    `N − 1` (the table's extent less the slice size 1). -/
theorem cols_start1 (j : (⟨2, ![C, M]⟩ : Shape).Idx) (idx : IVec ⟨2, ![M, 1]⟩ w) :
    (colsDims C N M wf).start j idx 1 = min (idx (ix2 (j 1) (0 : Fin 1))).toInt.toNat (N - 1) := by
  unfold GatherDims.start
  rw [dif_pos (List.mem_singleton.2 rfl)]
  have hsi : (colsDims C N M wf).siIdx j ⟨List.idxOf (1 : Fin 2) (colsDims C N M wf).startIndexMap,
      List.idxOf_lt_length_iff.2 (List.mem_singleton.2 rfl)⟩ = ix2 (j 1) (0 : Fin 1) := by
    funext b
    refine Fin.ext ?_
    match b with
    | ⟨0, _⟩ => rfl
    | ⟨1, _⟩ => rfl
  rw [hsi]
  rfl

/-- The column gather with its dimension numbers written out, read at `(k, r)`. -/
theorem cols_apply (hN : 0 < N) (x : (⟨2, ![C, N]⟩ : Shape).Idx → α) (idx : IVec ⟨2, ![M, 1]⟩ w)
    (k : Fin C) (r : Fin M) :
    Host.gather (colsDims C N M wf) x idx (ix2 k r)
      = x (ix2 k (⟨min (idx (ix2 r (0 : Fin 1))).toInt.toNat (N - 1), by omega⟩ : Fin N)) := by
  unfold Host.gather
  refine congrArg x (funext fun a => Fin.ext ?_)
  match a with
  | ⟨0, _⟩ =>
    show (colsDims C N M wf).start (ix2 k r) idx 0 + (colsDims C N M wf).batchCoord (ix2 k r) 0
      + (colsDims C N M wf).offCoord (ix2 k r) 0 = _
    rw [cols_start0, cols_batch, cols_off0]
    show 0 + 0 + k.val = k.val
    omega
  | ⟨1, _⟩ =>
    show (colsDims C N M wf).start (ix2 k r) idx 1 + (colsDims C N M wf).batchCoord (ix2 k r) 1
      + (colsDims C N M wf).offCoord (ix2 k r) 1 = _
    rw [cols_start1, cols_batch, cols_off1]
    rfl

end Cols

/-- A gather that takes whole columns of a `C × N` table, one column per index word (dimension numbers: offset axis 0,
    collapsed axis 1, start index map `[1]`, index vector axis 1, slice sizes `[C, 1]`, no batching axes), reads at
    `(k, r)` the table at `(k, col)`, where `col` is the `r`-th index word read as a signed integer and clamped into
    `[0, N − 1]`. The dimension numbers are given by equations on the record's fields; once the fields are replaced by
    these literals the record is the one of `cols_apply`. -/
theorem gather_cols_apply {C N M w : Nat} {α : Type} (d : GatherDims ⟨2, ![C, N]⟩ ⟨2, ![M, 1]⟩ ⟨2, ![C, M]⟩)
    (h1 : d.offsetDims = [0]) (h2 : d.collapsedSliceDims = [1]) (h3 : d.operandBatchingDims = []) (h4 : d.startIndicesBatchingDims = [])
    (h5 : d.startIndexMap = [1]) (h6 : d.indexVectorDim = 1) (h7 : d.sliceSizes = ![C, 1]) (hN : 0 < N)
    (x : (⟨2, ![C, N]⟩ : Shape).Idx → α) (idx : IVec ⟨2, ![M, 1]⟩ w) (k : Fin C) (r : Fin M) :
    Host.gather d x idx (ix2 k r)
      = x (ix2 k (⟨min (idx (ix2 r (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact cols_apply wf hN x idx k r

/-- When the `r`-th index word, read signed, already lies in `[0, N)`, the clamp does nothing: the column is the word
    itself. -/
theorem gather_cols_apply_of_inRange {C N M w : Nat} {α : Type} (d : GatherDims ⟨2, ![C, N]⟩ ⟨2, ![M, 1]⟩ ⟨2, ![C, M]⟩)
    (h1 : d.offsetDims = [0]) (h2 : d.collapsedSliceDims = [1]) (h3 : d.operandBatchingDims = []) (h4 : d.startIndicesBatchingDims = [])
    (h5 : d.startIndexMap = [1]) (h6 : d.indexVectorDim = 1) (h7 : d.sliceSizes = ![C, 1])
    (x : (⟨2, ![C, N]⟩ : Shape).Idx → α) (idx : IVec ⟨2, ![M, 1]⟩ w) (k : Fin C) (r : Fin M)
    (h0 : 0 ≤ (idx (ix2 r (0 : Fin 1))).toInt) (hlt : (idx (ix2 r (0 : Fin 1))).toInt < N) :
    Host.gather d x idx (ix2 k r)
      = x (ix2 k (⟨(idx (ix2 r (0 : Fin 1))).toInt.toNat, by omega⟩ : Fin N)) := by
  have hN : 0 < N := by omega
  rw [gather_cols_apply d h1 h2 h3 h4 h5 h6 h7 hN x idx k r]
  have hm : min (idx (ix2 r (0 : Fin 1))).toInt.toNat (N - 1) = (idx (ix2 r (0 : Fin 1))).toInt.toNat :=
    Nat.min_eq_left (by omega)
  exact congrArg x (congrArg (fun a => ix2 k a) (Fin.ext hm))
end Cert.LibGatherCols
end
-- ==== Proof.KernelTail.lean ====
import proofs.«405414_j17695265259649_3_alg».proof.Proof.Gen.KernelIdeal.Frame
import proofs.«405414_j17695265259649_3_alg».proof.Proof.Spec
import proofs.«405414_j17695265259649_3_alg».proof.Proof.SpecEdge
import proofs.«405414_j17695265259649_3_alg».proof.Proof.KLeaves
import proofs.«405414_j17695265259649_3_alg».proof.Proof.LibKeepdims
import proofs.«405414_j17695265259649_3_alg».proof.Proof.LibGatherCols
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The four host stretches before the third pallas_call, run from any contents

Between the second layer's relu and the third pallas_call the host transposes the node features, gathers them at the
two endpoint vectors, and re-lays the edge attribute, the three row blocks of W3 and the biases. Each result buffer,
as a function of the contents `V` the stretches are entered with: -/

section Stretches
variable (V : Valuation τ sig (Elt Ideal))

theorem tail_v87 : StableHlo.after hostOps2_5 (StableHlo.after hostOps2_4 (StableHlo.after hostOps2_3 (StableHlo.after hostOps2_2 V))) (Proc.devRef .tc main_v87)
    = Host.gather gather_S64x100000_S1600000x1_S64x1600000_0_1_n_n_1_1_641
        (transpose S64x100000 [1, 0] (V (Proc.devRef .tc main_v85)) transposes_S100000x64_S64x100000_1_0)
        (broadcastInDim S1600000x1 ![0] bcast_S1600000_S1600000x1_0 (V (Proc.devRef .tc main_v1))) := by
  after_results_simp
  rfl

theorem tail_v88 : StableHlo.after hostOps2_5 (StableHlo.after hostOps2_4 (StableHlo.after hostOps2_3 (StableHlo.after hostOps2_2 V))) (Proc.devRef .tc main_v88)
    = Host.gather gather_S64x100000_S1600000x1_S64x1600000_0_1_n_n_1_1_641
        (transpose S64x100000 [1, 0] (V (Proc.devRef .tc main_v85)) transposes_S100000x64_S64x100000_1_0)
        (broadcastInDim S1600000x1 ![0] bcast_S1600000_S1600000x1_0 (V (Proc.devRef .tc main_v3))) := by
  after_results_simp
  rfl

theorem tail_v89 : StableHlo.after hostOps2_5 (StableHlo.after hostOps2_4 (StableHlo.after hostOps2_3 (StableHlo.after hostOps2_2 V))) (Proc.devRef .tc main_v89)
    = transpose S1x1600000 [1, 0] (V (Proc.devRef .tc main_arg2)) transposes_S1600000x1_S1x1600000_1_0 := by
  after_results_simp

theorem tail_v93 : StableHlo.after hostOps2_5 (StableHlo.after hostOps2_4 (StableHlo.after hostOps2_3 (StableHlo.after hostOps2_2 V))) (Proc.devRef .tc main_v93)
    = transpose S64x64 [1, 0]
        (extractStridedSlice S64x64 ![0, 0] (V (Proc.devRef .tc main_arg7)) slices_S129x64_S64x64_0_0)
        transposes_S64x64_S64x64_1_0 := by
  after_results_simp

theorem tail_v94 : StableHlo.after hostOps2_5 (StableHlo.after hostOps2_4 (StableHlo.after hostOps2_3 (StableHlo.after hostOps2_2 V))) (Proc.devRef .tc main_v94)
    = transpose S64x64 [1, 0]
        (extractStridedSlice S64x64 ![64, 0] (V (Proc.devRef .tc main_arg7)) slices_S129x64_S64x64_64_0)
        transposes_S64x64_S64x64_1_0 := by
  after_results_simp

theorem tail_v95 : StableHlo.after hostOps2_5 (StableHlo.after hostOps2_4 (StableHlo.after hostOps2_3 (StableHlo.after hostOps2_2 V))) (Proc.devRef .tc main_v95)
    = transpose S64x1 [1, 0]
        (extractStridedSlice S1x64 ![128, 0] (V (Proc.devRef .tc main_arg7)) slices_S129x64_S1x64_128_0)
        transposes_S1x64_S64x1_1_0 := by
  after_results_simp

theorem tail_v96 : StableHlo.after hostOps2_5 (StableHlo.after hostOps2_4 (StableHlo.after hostOps2_3 (StableHlo.after hostOps2_2 V))) (Proc.devRef .tc main_v96)
    = shapeCast S64x1 (V (Proc.devRef .tc main_arg8)) shapeCasts_S64_S64x1 := by
  after_results_simp
  rfl

theorem tail_v97 : StableHlo.after hostOps2_5 (StableHlo.after hostOps2_4 (StableHlo.after hostOps2_3 (StableHlo.after hostOps2_2 V))) (Proc.devRef .tc main_v97)
    = transpose S1x64 [1, 0] (V (Proc.devRef .tc main_arg9)) transposes_S64x1_S1x64_1_0 := by
  after_results_simp

theorem tail_v98 : StableHlo.after hostOps2_5 (StableHlo.after hostOps2_4 (StableHlo.after hostOps2_3 (StableHlo.after hostOps2_2 V))) (Proc.devRef .tc main_v98)
    = shapeCast S1x1 (V (Proc.devRef .tc main_arg10)) shapeCasts_S1_S1x1 := by
  after_results_simp
  rfl

end Stretches

/-! ## Two layout readings by coordinates -/

/-- A vector laid as a column reads, at `(p, u)`, the vector at `p`. -/
private theorem col_of_vec {α : Type} {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) :=
  broadcastInDim_apply _ h v _ _ fun a => by
    match a with
    | ⟨0, _⟩ =>
      show p.val = if n = 1 then 0 else p.val
      split
      · have := p.isLt; omega
      · rfl

/-- The gathered node features: the table is the node features transposed (features along rows, nodes along columns),
    the index words are an endpoint vector laid as a column; entry `(k, e)` is feature `k` of the node the `e`-th word
    addresses, the word read signed and clamped into the table. -/
private theorem take_col_at (T : (⟨2, ![100000, 64]⟩ : Shape).Idx → EReal) (v : (⟨1, ![1600000]⟩ : Shape).Idx → BitVec 32)
    (k : Fin 64) (e : Fin 1600000) :
    Host.gather gather_S64x100000_S1600000x1_S64x1600000_0_1_n_n_1_1_641
        (transpose S64x100000 [1, 0] T transposes_S100000x64_S64x100000_1_0)
        (broadcastInDim S1600000x1 ![0] bcast_S1600000_S1600000x1_0 v) (ix2 k e)
      = T (ix2 (Cert.SpecEdge.clampRow 100000 (by decide) (v (ix1 e))) k) := by
  refine (Cert.LibGatherCols.gather_cols_apply gather_S64x100000_S1600000x1_S64x1600000_0_1_n_n_1_1_641
    rfl rfl rfl rfl rfl rfl rfl (by decide) _ _ k e).trans ?_
  refine (transpose_ix2_apply T _ _ _).trans ?_
  have hw : broadcastInDim S1600000x1 ![0] bcast_S1600000_S1600000x1_0 v (ix2 e (0 : Fin 1)) = v (ix1 e) :=
    col_of_vec _ v e 0
  exact congrArg T (congrArg (fun a => ix2 a k) (Fin.ext (by
    show min _ (100000 - 1) = min _ (100000 - 1)
    rw [hw])))

/-! ## The operand arrays of the third pallas_call, entry by entry -/

/-- Source-node features: column `e` is the row of h the source word of edge `e` addresses. -/
theorem v87_at (c : Dev nD) (k : Fin 64) (e : Fin 1600000) :
    V11 m ρ c main_v87 (ix2 k e)
      = W7 m ρ c (Proc.devRef .tc main_v85)
          (ix2 (Cert.SpecEdge.clampRow 100000 (by decide)
            (Cert.Spec.srcOf (F := Ideal) (m ((c : Thread nD τ).loc main_arg1)) (ix1 e))) k) := by
  have h := tail_v87 (W7 m ρ c)
  rw [W7_v1] at h
  exact (congrFun h (ix2 k e)).trans (take_col_at _ _ k e)

/-- Target-node features: column `e` is the row of h the target word of edge `e` addresses. -/
theorem v88_at (c : Dev nD) (k : Fin 64) (e : Fin 1600000) :
    V11 m ρ c main_v88 (ix2 k e)
      = W7 m ρ c (Proc.devRef .tc main_v85)
          (ix2 (Cert.SpecEdge.clampRow 100000 (by decide)
            (Cert.Spec.dstOf (F := Ideal) (m ((c : Thread nD τ).loc main_arg1)) (ix1 e))) k) := by
  have h := tail_v88 (W7 m ρ c)
  rw [W7_v3] at h
  exact (congrFun h (ix2 k e)).trans (take_col_at _ _ k e)

/-- The edge attribute laid as a row: entry `(0, e)` of the transposed column is the column's entry `e`. -/
theorem v89_at (c : Dev nD) (k : Fin 1) (e : Fin 1600000) :
    V11 m ρ c main_v89 (ix2 k e) = m ((c : Thread nD τ).loc main_arg2) (ix2 e (0 : Fin 1)) := by
  have h := tail_v89 (W7 m ρ c)
  rw [W7_arg2] at h
  obtain rfl : k = 0 := Subsingleton.elim _ _
  exact (congrFun h (ix2 0 e)).trans (transpose_ix2_apply _ _ _ _)

/-- Rows 0..63 of W3, transposed: entry `(j, k)` is W3 at `(k, j)`. -/
theorem v93_at (c : Dev nD) (j k : Fin 64) :
    V11 m ρ c main_v93 (ix2 j k) = m ((c : Thread nD τ).loc main_arg7) (ix2 (⟨k.val, by omega⟩ : Fin 129) j) := by
  have h := tail_v93 (W7 m ρ c)
  rw [W7_arg7] at h
  refine (congrFun h (ix2 j k)).trans ?_
  refine (transpose_ix2_apply _ _ j k).trans ?_
  refine extractStridedSlice_apply _ _ _ _ _ fun a => ?_
  match a with
  | ⟨0, _⟩ => show k.val = 0 + k.val; omega
  | ⟨1, _⟩ => show j.val = 0 + j.val; omega

/-- Rows 64..127 of W3, transposed: entry `(j, k)` is W3 at `(64 + k, j)`. -/
theorem v94_at (c : Dev nD) (j k : Fin 64) :
    V11 m ρ c main_v94 (ix2 j k) = m ((c : Thread nD τ).loc main_arg7) (ix2 (⟨64 + k.val, by omega⟩ : Fin 129) j) := by
  have h := tail_v94 (W7 m ρ c)
  rw [W7_arg7] at h
  refine (congrFun h (ix2 j k)).trans ?_
  refine (transpose_ix2_apply _ _ j k).trans ?_
  refine extractStridedSlice_apply _ _ _ _ _ fun a => ?_
  match a with
  | ⟨0, _⟩ => rfl
  | ⟨1, _⟩ => show j.val = 0 + j.val; omega

/-- Row 128 of W3 as a column: entry `(j, 0)` is W3 at `(128, j)`. -/
theorem v95_at (c : Dev nD) (j : Fin 64) (k : Fin 1) :
    V11 m ρ c main_v95 (ix2 j k) = m ((c : Thread nD τ).loc main_arg7) (ix2 (⟨128, by omega⟩ : Fin 129) j) := by
  have h := tail_v95 (W7 m ρ c)
  rw [W7_arg7] at h
  refine (congrFun h (ix2 j k)).trans ?_
  refine (transpose_ix2_apply _ _ j k).trans ?_
  refine extractStridedSlice_apply _ _ _ _ _ fun a => ?_
  match a with
  | ⟨0, _⟩ => show 128 = 128 + k.val; omega
  | ⟨1, _⟩ => show j.val = 0 + j.val; omega

/-- The hidden bias as a column. -/
theorem v96_at (c : Dev nD) (j : Fin 64) (u : Fin 1) :
    V11 m ρ c main_v96 (ix2 j u) = m ((c : Thread nD τ).loc main_arg8) (ix1 j) := by
  have h := tail_v96 (W7 m ρ c)
  rw [W7_arg8] at h
  exact (congrFun h (ix2 j u)).trans (Cert.LibKeepdims.shapeCast_a_a1_apply _ _ j u)

/-- The output weight column as a row. -/
theorem v97_at (c : Dev nD) (u : Fin 1) (j : Fin 64) :
    V11 m ρ c main_v97 (ix2 u j) = m ((c : Thread nD τ).loc main_arg9) (ix2 j (0 : Fin 1)) := by
  have h := tail_v97 (W7 m ρ c)
  rw [W7_arg9] at h
  obtain rfl : u = 0 := Subsingleton.elim _ _
  exact (congrFun h (ix2 0 j)).trans (transpose_ix2_apply _ _ _ _)

/-- The output bias as a one-by-one array. -/
theorem v98_at (c : Dev nD) :
    V11 m ρ c main_v98 (ix2 (0 : Fin 1) (0 : Fin 1)) = m ((c : Thread nD τ).loc main_arg10) (ix1 (0 : Fin 1)) := by
  have h := tail_v98 (W7 m ρ c)
  rw [W7_arg10] at h
  exact (congrFun h (ix2 0 0)).trans (Cert.LibKeepdims.shapeCast_a_a1_apply _ _ 0 0)

/-- The operand arrays of the third pallas_call, read at the entries the edge score touches: the gathered node features
    are rows of the second layer's output h addressed by the clamped endpoint words; the weight blocks are row blocks of
    W3; the biases and the edge attribute are the arguments re-laid. So the kernel's arrangement of the score over its
    operand arrays is its arrangement over h and the arguments. -/
theorem tail_value (c : Dev nD) (e : Fin 1600000) :
    Cert.SpecEdge.edgeKer (V11 m ρ c main_v87) (V11 m ρ c main_v88) (V11 m ρ c main_v89) (V11 m ρ c main_v93) (V11 m ρ c main_v94)
        (V11 m ρ c main_v95) (V11 m ρ c main_v96) (V11 m ρ c main_v97) (V11 m ρ c main_v98) e
      = Cert.SpecEdge.scoreKer (Ideal.ofBits .f32 0x00000000#32)
          (fun k => W7 m ρ c (Proc.devRef .tc main_v85)
            (ix2 (Cert.SpecEdge.clampRow 100000 (by decide) (Cert.Spec.srcOf (F := Ideal) (m ((c : Thread nD τ).loc main_arg1)) (ix1 e))) k))
          (fun k => W7 m ρ c (Proc.devRef .tc main_v85)
            (ix2 (Cert.SpecEdge.clampRow 100000 (by decide) (Cert.Spec.dstOf (F := Ideal) (m ((c : Thread nD τ).loc main_arg1)) (ix1 e))) k))
          (m ((c : Thread nD τ).loc main_arg2) (ix2 e (0 : Fin 1)))
          (m ((c : Thread nD τ).loc main_arg7)) (m ((c : Thread nD τ).loc main_arg8))
          (m ((c : Thread nD τ).loc main_arg9)) (m ((c : Thread nD τ).loc main_arg10)) := by
  unfold Cert.SpecEdge.edgeKer Cert.SpecEdge.scoreKer
  simp only [v87_at m ρ c, v88_at m ρ c, v89_at m ρ c, v93_at m ρ c, v94_at m ρ c, v95_at m ρ c, v96_at m ρ c,
    v97_at m ρ c, v98_at m ρ c]

/-- The program's result is the third pallas_call's result row, flattened. -/
theorem out_value (c : Dev nD) (e : Fin 1600000) :
    W13 m ρ c (Proc.devRef .tc main_v100) (ix1 e) = W12 m ρ c (Proc.devRef .tc main_v99) (ix2 (0 : Fin 1) e) := by
  have h : W13 m ρ c (Proc.devRef .tc main_v100)
      = shapeCast S1600000 (W12 m ρ c (Proc.devRef .tc main_v99)) shapeCasts_S1x1600000_S1600000 := by
    show StableHlo.after hostOps3 (W12 m ρ c) (Proc.devRef .tc main_v100) = _
    after_results
    rfl
  rw [h]
  refine shapeCast_apply (s := S1x1600000) (t := S1600000) _ _ (ix1 e) (ix2 (0 : Fin 1) e) ?_
  rw [Shape.rowMajor_val_two, Shape.rowMajor_val_one]
  show 0 * 1600000 + e.val = e.val
  omega

end Cert.KernelIdeal.Val

end
-- ==== Proof.LibGatherRows.lean ====
import Idealize.ShloMosaic.PureOps
import Idealize.ShloMosaic.Lib.ValueIdx
noncomputable section

namespace Cert.LibGatherRows
open Idealize.ShloMosaic Idealize.ShloMosaic.ValueIdx

/-! ## Gathering whole rows of a table

A table `x : [N, C]` is gathered by a column of index words `idx : [M, 1]`: the dimension numbers collapse the
table's axis 0 and let the one component of each start index address it, keep the table's axis 1 whole as the
result's offset axis 1, and have no batching axes. Result element `(r, k)` is then the table at `(row, k)`, where
`row` is the `r`-th index word read as a signed integer and clamped into `[0, N − 1]`.

The operand index of a gather is, on each operand axis, a clamped start plus a batching coordinate plus an offset
coordinate. For these dimension numbers the three summands are computed one by one below: on axis 0 the start is the
clamped index word and the other two vanish (the axis is collapsed); on axis 1 the start and the batching coordinate
vanish (the axis is not addressed by the start index) and the offset coordinate is the result's column. -/

section Rows
variable {α : Type}

/-- The dimension numbers of a row gather, for a table `[N, C]`, start indices `[M, 1]` and a result `[M, C]`. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N M C w : Nat}
  (wf : GatherDims.WF ⟨2, ![N, C]⟩ ⟨2, ![M, 1]⟩ ⟨2, ![M, C]⟩ [1] [0] [] [0] [] 1 ![1, C])

/-- There are no batching axes, so the batching coordinate is zero on both table axes. -/
theorem rows_batch (j : (⟨2, ![M, C]⟩ : Shape).Idx) (a : Fin 2) : (rowsDims N M C wf).batchCoord j a = 0 :=
  GatherDims.batchCoord_eq_zero _ _ _ List.not_mem_nil

/-- Axis 0 of the table is collapsed: it is not among the kept axes, so its offset coordinate is zero. -/
theorem rows_off0 (j : (⟨2, ![M, C]⟩ : Shape).Idx) : (rowsDims N M C wf).offCoord j 0 = 0 :=
  GatherDims.offCoord_eq_zero _ _ _ fun h => ((GatherDims.mem_sKept _ _).1 h).1 (List.mem_singleton.2 rfl)

/-- Axis 1 of the table is not addressed by the start index, so the slice starts at column zero. -/
theorem rows_start1 (j : (⟨2, ![M, C]⟩ : Shape).Idx) (idx : IVec ⟨2, ![M, 1]⟩ w) :
    (rowsDims N M C wf).start j idx 1 = 0 := by
  unfold GatherDims.start
  exact dif_neg (show (1 : Fin 2) ∉ [0] by decide)

/-- Axis 1 is the only kept axis of the table, in position 0, and the result's offset axis in that position is its
    axis 1: the offset coordinate is the result's column. -/
theorem rows_off1 (j : (⟨2, ![M, C]⟩ : Shape).Idx) : (rowsDims N M C wf).offCoord j 1 = (j 1).val := by
  unfold GatherDims.offCoord
  rw [dif_pos ((GatherDims.mem_sKept _ _).2 ⟨show (1 : Fin 2) ∉ [0] by decide, List.not_mem_nil⟩)]
  rfl

/-- Axis 0 is component 0 of the start index. That component is read at the start-indices position
    `(j 0, 0)` — the result's batch coordinate, and 0 on the index vector's axis —, signed, and clamped to
    `N − 1` (the table's extent less the slice size 1). -/
theorem rows_start0 (j : (⟨2, ![M, C]⟩ : Shape).Idx) (idx : IVec ⟨2, ![M, 1]⟩ w) :
    (rowsDims N M C wf).start j idx 0 = min (idx (ix2 (j 0) (0 : Fin 1))).toInt.toNat (N - 1) := by
  unfold GatherDims.start
  rw [dif_pos (List.mem_singleton.2 rfl)]
  have hsi : (rowsDims N M C wf).siIdx j ⟨List.idxOf (0 : Fin 2) (rowsDims N M C wf).startIndexMap,
      List.idxOf_lt_length_iff.2 (List.mem_singleton.2 rfl)⟩ = ix2 (j 0) (0 : Fin 1) := by
    funext b
    refine Fin.ext ?_
    match b with
    | ⟨0, _⟩ => rfl
    | ⟨1, _⟩ => rfl
  rw [hsi]
  rfl

/-- The row gather with its dimension numbers written out, read at `(r, k)`. -/
theorem rows_apply (hN : 0 < N) (x : (⟨2, ![N, C]⟩ : Shape).Idx → α) (idx : IVec ⟨2, ![M, 1]⟩ w)
    (r : Fin M) (k : Fin C) :
    Host.gather (rowsDims N M C wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (rowsDims N M C wf).start (ix2 r k) idx 0 + (rowsDims N M C wf).batchCoord (ix2 r k) 0
      + (rowsDims N M C wf).offCoord (ix2 r k) 0 = _
    rw [rows_start0, rows_batch, rows_off0]
    rfl
  | ⟨1, _⟩ =>
    show (rowsDims N M C wf).start (ix2 r k) idx 1 + (rowsDims N M C wf).batchCoord (ix2 r k) 1
      + (rowsDims N M C wf).offCoord (ix2 r k) 1 = _
    rw [rows_start1, rows_batch, rows_off1]
    show 0 + 0 + k.val = k.val
    omega

end Rows

/-- A gather that takes whole rows of an `N × C` table, one row per index word (dimension numbers: offset axis 1,
    collapsed axis 0, start index map `[0]`, index vector axis 1, slice sizes `[1, C]`, no batching axes), reads at
    `(r, k)` the table at `(row, k)`, where `row` is the `r`-th index word read as a signed integer and clamped into
    `[0, N − 1]`. The dimension numbers are given by equations on the record's fields; once the fields are replaced by
    these literals the record is the one of `rows_apply`. -/
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  exact rows_apply wf hN x idx r k

/-- When the `r`-th index word, read signed, already lies in `[0, N)`, the clamp does nothing: the row is the word
    itself. -/
theorem gather_rows_apply_of_inRange {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C])
    (x : (⟨2, ![N, C]⟩ : Shape).Idx → α) (idx : IVec ⟨2, ![M, 1]⟩ w) (r : Fin M) (k : Fin C)
    (h0 : 0 ≤ (idx (ix2 r (0 : Fin 1))).toInt) (hlt : (idx (ix2 r (0 : Fin 1))).toInt < N) :
    Host.gather d x idx (ix2 r k)
      = x (ix2 (⟨(idx (ix2 r (0 : Fin 1))).toInt.toNat, by omega⟩ : Fin N) k) := by
  have hN : 0 < N := by omega
  rw [gather_rows_apply d h1 h2 h3 h4 h5 h6 h7 hN x idx r k]
  have hm : min (idx (ix2 r (0 : Fin 1))).toInt.toNat (N - 1) = (idx (ix2 r (0 : Fin 1))).toInt.toNat :=
    Nat.min_eq_left (by omega)
  exact congrArg x (congrArg (fun a => ix2 a k) (Fin.ext hm))
end Cert.LibGatherRows
end
-- ==== Proof.RefSide.lean ====
import proofs.«405414_j17695265259649_3_alg».proof.Proof.Gen.ReferenceIdeal.Run
import proofs.«405414_j17695265259649_3_alg».proof.Proof.Gen.ReferenceIdeal.Read
import proofs.«405414_j17695265259649_3_alg».proof.Proof.Gen.KernelIdeal
import proofs.«405414_j17695265259649_3_alg».proof.Proof.Spec
import proofs.«405414_j17695265259649_3_alg».proof.Proof.SpecEdge
import proofs.«405414_j17695265259649_3_alg».proof.Proof.LibGatherRows
import proofs.«405414_j17695265259649_3_alg».proof.Proof.LibMatmulPlain

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open scoped BigOperators

/-- The reference's source row of the edge list is the shared one. -/
theorem src_eq (x1 : (⟨S2x1600000, .i32⟩ : BufTy).Contents (Elt Ideal)) :
    val_main_v1 (F := Ideal) x1 = Cert.Spec.srcOf (F := Ideal) x1 := rfl

/-- The reference's target row of the edge list is the shared one. -/
theorem dst_eq (x1 : (⟨S2x1600000, .i32⟩ : BufTy).Contents (Elt Ideal)) :
    val_main_v3 (F := Ideal) x1 = Cert.Spec.dstOf (F := Ideal) x1 := rfl

/-- The first dot_general is the plain product x · W1: entry (i, j) sums x[i, k] · W1[k, j] over k. -/
theorem dense1_eq (x0 : (⟨S100000x128, .f32⟩ : BufTy).Contents (Elt Ideal)) (x3 : (⟨S128x64, .f32⟩ : BufTy).Contents (Elt Ideal)) :
    val_main_v4 (F := Ideal) x0 x3 = Cert.Spec.dense (M := 100000) (K := 128) (N := 64) x0 x3 := by
  funext i
  rw [val_main_v4_apply]
  unfold Cert.Spec.dense
  refine Finset.sum_congr rfl fun k _ => ?_
  have el : lidx_main_v4 i k = ix2 (⟨(i 0).val, (i 0).isLt⟩ : Fin 100000) k :=
    funext fun a => Fin.ext (by match a with | ⟨0, _⟩ => rfl | ⟨1, _⟩ => rfl)
  have er : ridx_main_v4 i k = ix2 k (⟨(i 1).val, (i 1).isLt⟩ : Fin 64) :=
    funext fun a => Fin.ext (by match a with | ⟨0, _⟩ => rfl | ⟨1, _⟩ => rfl)
  rw [el, er]

/-- The host operations between the first product and the second are one layer over the first product. -/
theorem layer1_eq (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal)) :
    val_main_v44 (F := Ideal) x0 x1 x3 x4
      = Cert.Spec.layer (F := Ideal) (val_main_v4 (F := Ideal) x0 x3) (val_main_v1 (F := Ideal) x1) (val_main_v3 (F := Ideal) x1) x4 := rfl

/-- The second dot_general is the plain product h · W2 over the first layer's output h. -/
theorem dense2_eq (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) :
    val_main_v45 (F := Ideal) x0 x1 x3 x4 x5
      = Cert.Spec.dense (M := 100000) (K := 64) (N := 64) (val_main_v44 (F := Ideal) x0 x1 x3 x4) x5 := by
  funext i
  rw [val_main_v45_apply]
  generalize val_main_v44 (F := Ideal) x0 x1 x3 x4 = h
  unfold Cert.Spec.dense
  refine Finset.sum_congr rfl fun k _ => ?_
  have el : lidx_main_v45 i k = ix2 (⟨(i 0).val, (i 0).isLt⟩ : Fin 100000) k :=
    funext fun a => Fin.ext (by match a with | ⟨0, _⟩ => rfl | ⟨1, _⟩ => rfl)
  have er : ridx_main_v45 i k = ix2 k (⟨(i 1).val, (i 1).isLt⟩ : Fin 64) :=
    funext fun a => Fin.ext (by match a with | ⟨0, _⟩ => rfl | ⟨1, _⟩ => rfl)
  rw [el, er]

/-- The host operations after the second product are one layer over it. -/
theorem layer2_eq (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v85 (F := Ideal) x0 x1 x3 x4 x5 x6
      = Cert.Spec.layer (F := Ideal) (val_main_v45 (F := Ideal) x0 x1 x3 x4 x5) (val_main_v1 (F := Ideal) x1) (val_main_v3 (F := Ideal) x1) x6 := rfl

/-- The reference's node features after its two layers are the shared function of the arguments: its two
    dot_generals are the plain products, and its host operations between them are the layer's, one for one. -/
theorem feat_eq (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v85 (F := Ideal) x0 x1 x3 x4 x5 x6 = Cert.Spec.nodeFeat x0 x1 x3 x4 x5 x6 := by
  rw [layer2_eq, dense2_eq, layer1_eq, dense1_eq, src_eq, dst_eq]
  rfl

/-- The reference's reading of an index word: a negative word i is read as i + 100000. -/
theorem wrap_word (w : BitVec 32) :
    Scalar.select (IntOp.cmpi .slt w 0#32) (IntOp.addi w 100000#32) w = Cert.SpecEdge.wrapWord w := by
  unfold Cert.SpecEdge.wrapWord IntOp.cmpi IntOp.addi Scalar.select
  cases h : w.slt 0#32 <;> simp [h]

/-- A row gather of the node features at a column of index words reads, at (e, k), the features at the row the
    e-th word addresses once clamped into the table, column k. -/
theorem gather_row (H : (⟨S100000x64, .f32⟩ : BufTy).Contents (Elt Ideal)) (idx : (⟨S1600000x1, .i32⟩ : BufTy).Contents (Elt Ideal))
    (e : Fin 1600000) (k : Fin 64) :
    Host.gather gather_S100000x64_S1600000x1_S1600000x64_1_0_n_n_0_1_164 H idx (ix2 e k)
      = H (ix2 (Cert.SpecEdge.clampRow 100000 (by decide) (idx (ix2 e (0 : Fin 1)))) k) :=
  Cert.LibGatherRows.gather_rows_apply gather_S100000x64_S1600000x1_S1600000x64_1_0_n_n_0_1_164 rfl rfl rfl rfl rfl rfl rfl
    (by decide) H idx e k

/-- The index column of the source gather holds, at (e, 0), the wrapped source word of edge e. -/
theorem src_word (x1 : (⟨S2x1600000, .i32⟩ : BufTy).Contents (Elt Ideal)) (e : Fin 1600000) :
    val_main_v91 (F := Ideal) x1 (ix2 e (0 : Fin 1))
      = Cert.SpecEdge.wrapWord (Cert.Spec.srcOf (F := Ideal) x1 (ix1 e)) := by
  have ei : idx_main_v91 (ix2 e (0 : Fin 1)) = ix1 e :=
    funext fun a => Fin.ext (by match a with | ⟨0, _⟩ => rfl)
  rw [val_main_v91_apply, ei, val_main_v90_apply, val_main_v87_apply, val_main_v89_apply, val_main_v86_apply,
    val_main_v88_apply, val_main_c_16_apply, val_main_c_17_apply, src_eq]
  exact wrap_word _

/-- The index column of the target gather holds, at (e, 0), the wrapped target word of edge e. -/
theorem dst_word (x1 : (⟨S2x1600000, .i32⟩ : BufTy).Contents (Elt Ideal)) (e : Fin 1600000) :
    val_main_v98 (F := Ideal) x1 (ix2 e (0 : Fin 1))
      = Cert.SpecEdge.wrapWord (Cert.Spec.dstOf (F := Ideal) x1 (ix1 e)) := by
  have ei : idx_main_v98 (ix2 e (0 : Fin 1)) = ix1 e :=
    funext fun a => Fin.ext (by match a with | ⟨0, _⟩ => rfl)
  rw [val_main_v98_apply, ei, val_main_v97_apply, val_main_v94_apply, val_main_v96_apply, val_main_v93_apply,
    val_main_v95_apply, val_main_c_18_apply, val_main_c_19_apply, dst_eq]
  exact wrap_word _

/-- The concatenation [A | B | a] along the feature axis, read at (e, q): columns 0..63 are A's row e, columns
    64..127 are B's row e, column 128 is the attribute of edge e. -/
theorem cat_apply (A B : (⟨S1600000x64, .f32⟩ : BufTy).Contents (Elt Ideal)) (x2 : (⟨S1600000x1, .f32⟩ : BufTy).Contents (Elt Ideal))
    (e : Fin 1600000) (q : Fin 129) :
    concatenate S1600000x129 1 [⟨S1600000x64, A⟩, ⟨S1600000x64, B⟩, ⟨S1600000x1, x2⟩]
        concatenates_S1600000x64_S1600000x64_S1600000x1_S1600000x129_d1 (ix2 e q)
      = Cert.SpecEdge.cat (fun k => A (ix2 e k)) (fun k => B (ix2 e k)) (x2 (ix2 e (0 : Fin 1))) q := by
  unfold Cert.SpecEdge.cat
  by_cases h1 : q.val < 64
  · rw [dif_pos h1]
    exact concatenate_apply_piece 1 _ _ (ix2 e q) 0 (by show (0 : Nat) < 3; omega) S1600000x64 A rfl rfl 0 rfl (ix2 e (⟨q.val, h1⟩ : Fin 64))
      (fun b hb => by
        match b with
        | ⟨0, _⟩ => rfl
        | ⟨1, _⟩ => exact absurd rfl hb)
      (by show 0 + q.val = q.val; omega)
  · rw [dif_neg h1]
    by_cases h2 : q.val < 128
    · rw [dif_pos h2]
      exact concatenate_apply_piece 1 _ _ (ix2 e q) 1 (by show (1 : Nat) < 3; omega) S1600000x64 B rfl rfl 64 rfl
        (ix2 e (⟨q.val - 64, by omega⟩ : Fin 64))
        (fun b hb => by
          match b with
          | ⟨0, _⟩ => rfl
          | ⟨1, _⟩ => exact absurd rfl hb)
        (by show 64 + (q.val - 64) = q.val; omega)
    · rw [dif_neg h2]
      exact concatenate_apply_piece 1 _ _ (ix2 e q) 2 (by show (2 : Nat) < 3; omega) S1600000x1 x2 rfl rfl 128 rfl
        (ix2 e (0 : Fin 1))
        (fun b hb => by
          match b with
          | ⟨0, _⟩ => rfl
          | ⟨1, _⟩ => exact absurd rfl hb)
        (by have := q.isLt; show 128 + 0 = q.val; omega)

/-- The 129 features of edge e as the reference lays them out: the node features at the wrapped and clamped source
    row, those at the wrapped and clamped target row, the edge attribute. -/
theorem feat_row (x0 : (⟨S100000x128, .f32⟩ : BufTy).Contents (Elt Ideal)) (x1 : (⟨S2x1600000, .i32⟩ : BufTy).Contents (Elt Ideal))
    (x2 : (⟨S1600000x1, .f32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (e : Fin 1600000) (q : Fin 129) :
    val_main_v100 (F := Ideal) x0 x1 x2 x3 x4 x5 x6 (ix2 e q)
      = Cert.SpecEdge.cat
          (fun k => val_main_v85 (F := Ideal) x0 x1 x3 x4 x5 x6
            (ix2 (Cert.SpecEdge.clampRow 100000 (by decide) (Cert.SpecEdge.wrapWord (Cert.Spec.srcOf (F := Ideal) x1 (ix1 e)))) k))
          (fun k => val_main_v85 (F := Ideal) x0 x1 x3 x4 x5 x6
            (ix2 (Cert.SpecEdge.clampRow 100000 (by decide) (Cert.SpecEdge.wrapWord (Cert.Spec.dstOf (F := Ideal) x1 (ix1 e)))) k))
          (x2 (ix2 e (0 : Fin 1))) q := by
  unfold val_main_v100 val_main_v92 val_main_v99
  generalize val_main_v85 (F := Ideal) x0 x1 x3 x4 x5 x6 = H
  have hs : (fun k : Fin 64 => Host.gather gather_S100000x64_S1600000x1_S1600000x64_1_0_n_n_0_1_164 H (val_main_v91 (F := Ideal) x1) (ix2 e k))
      = fun k => H (ix2 (Cert.SpecEdge.clampRow 100000 (by decide) (Cert.SpecEdge.wrapWord (Cert.Spec.srcOf (F := Ideal) x1 (ix1 e)))) k) :=
    funext fun k => by rw [gather_row, src_word]
  have hd : (fun k : Fin 64 => Host.gather gather_S100000x64_S1600000x1_S1600000x64_1_0_n_n_0_1_164 H (val_main_v98 (F := Ideal) x1) (ix2 e k))
      = fun k => H (ix2 (Cert.SpecEdge.clampRow 100000 (by decide) (Cert.SpecEdge.wrapWord (Cert.Spec.dstOf (F := Ideal) x1 (ix1 e)))) k) :=
    funext fun k => by rw [gather_row, dst_word]
  rw [cat_apply, hs, hd]

/-- The hidden unit j of edge e: the 129 features contracted against column j of W3, the bias added, the relu. -/
theorem hidden_apply (x0 : (⟨S100000x128, .f32⟩ : BufTy).Contents (Elt Ideal)) (x1 : (⟨S2x1600000, .i32⟩ : BufTy).Contents (Elt Ideal))
    (x2 : (⟨S1600000x1, .f32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S129x64, .f32⟩ : BufTy).Contents (Elt Ideal)) (x8 : (⟨S64, .f32⟩ : BufTy).Contents (Elt Ideal))
    (e : Fin 1600000) (j : Fin 64) :
    val_main_v105 (F := Ideal) x0 x1 x2 x3 x4 x5 x6 x7 x8 (ix2 e j)
      = max ((∑ q : Fin 129, val_main_v100 (F := Ideal) x0 x1 x2 x3 x4 x5 x6 (ix2 e q) * x7 (ix2 q j)) + x8 (ix1 j))
          (Ideal.ofBits .f32 0x00000000#32) := by
  have e8 : idx_main_v102 (idx_main_v103 (ix2 e j)) = ix1 j :=
    funext fun a => Fin.ext (by match a with | ⟨0, _⟩ => rfl)
  have hsum : (∑ q : Fin 129, val_main_v100 (F := Ideal) x0 x1 x2 x3 x4 x5 x6 (lidx_main_v101 (ix2 e j) q) * x7 (ridx_main_v101 (ix2 e j) q))
      = ∑ q : Fin 129, val_main_v100 (F := Ideal) x0 x1 x2 x3 x4 x5 x6 (ix2 e q) * x7 (ix2 q j) := by
    generalize val_main_v100 (F := Ideal) x0 x1 x2 x3 x4 x5 x6 = y
    refine Finset.sum_congr rfl fun q _ => ?_
    have el : lidx_main_v101 (ix2 e j) q = ix2 e q :=
      funext fun a => Fin.ext (by match a with | ⟨0, _⟩ => rfl | ⟨1, _⟩ => rfl)
    have er : ridx_main_v101 (ix2 e j) q = ix2 q j :=
      funext fun a => Fin.ext (by match a with | ⟨0, _⟩ => rfl | ⟨1, _⟩ => rfl)
    rw [el, er]
  rw [val_main_v105_apply, val_main_v104_apply, val_main_v101_apply, val_main_v103_apply, val_main_v102_apply,
    val_main_call2_v0_apply, val_main_call2_cst_apply, e8, hsum, Ideal.maximumf_def, Ideal.addf_def, Ideal.ofBits_def]

/-- Entry e of the reference's result is the edge score in the reference's arrangement, over its node features read at
    the rows its two gathers address: the endpoint word wrapped, then clamped. -/
theorem ref_value (x0 : (⟨S100000x128, .f32⟩ : BufTy).Contents (Elt Ideal)) (x1 : (⟨S2x1600000, .i32⟩ : BufTy).Contents (Elt Ideal))
    (x2 : (⟨S1600000x1, .f32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal))
    (x7 : (⟨S129x64, .f32⟩ : BufTy).Contents (Elt Ideal)) (x8 : (⟨S64, .f32⟩ : BufTy).Contents (Elt Ideal))
    (x9 : (⟨S64x1, .f32⟩ : BufTy).Contents (Elt Ideal)) (x10 : (⟨S1, .f32⟩ : BufTy).Contents (Elt Ideal)) (e : Fin 1600000) :
    val_main_v110 (F := Ideal) x0 x1 x2 x3 x4 x5 x6 x7 x8 x9 x10 (ix1 e)
      = Cert.SpecEdge.scoreRef (Ideal.ofBits .f32 0x00000000#32)
          (fun k => val_main_v85 (F := Ideal) x0 x1 x3 x4 x5 x6
            (ix2 (Cert.SpecEdge.clampRow 100000 (by decide) (Cert.SpecEdge.wrapWord (Cert.Spec.srcOf (F := Ideal) x1 (ix1 e)))) k))
          (fun k => val_main_v85 (F := Ideal) x0 x1 x3 x4 x5 x6
            (ix2 (Cert.SpecEdge.clampRow 100000 (by decide) (Cert.SpecEdge.wrapWord (Cert.Spec.dstOf (F := Ideal) x1 (ix1 e)))) k))
          (x2 (ix2 e (0 : Fin 1))) x7 x8 x9 x10 := by
  have e110 : idx_main_v110 (ix1 e) = ix2 e (0 : Fin 1) :=
    funext fun a => Fin.ext (by
      match a with
      | ⟨0, _⟩ => exact Nat.div_one _
      | ⟨1, _⟩ => rfl)
  have e10 : idx_main_v107 (idx_main_v108 (ix2 e (0 : Fin 1))) = ix1 (0 : Fin 1) :=
    funext fun a => Fin.ext (by match a with | ⟨0, _⟩ => rfl)
  have hsum : (∑ j : Fin 64, val_main_v105 (F := Ideal) x0 x1 x2 x3 x4 x5 x6 x7 x8 (lidx_main_v106 (ix2 e (0 : Fin 1)) j)
        * x9 (ridx_main_v106 (ix2 e (0 : Fin 1)) j))
      = ∑ j : Fin 64, val_main_v105 (F := Ideal) x0 x1 x2 x3 x4 x5 x6 x7 x8 (ix2 e j) * x9 (ix2 j (0 : Fin 1)) := by
    generalize val_main_v105 (F := Ideal) x0 x1 x2 x3 x4 x5 x6 x7 x8 = y
    refine Finset.sum_congr rfl fun j _ => ?_
    have el : lidx_main_v106 (ix2 e (0 : Fin 1)) j = ix2 e j :=
      funext fun a => Fin.ext (by match a with | ⟨0, _⟩ => rfl | ⟨1, _⟩ => rfl)
    have er : ridx_main_v106 (ix2 e (0 : Fin 1)) j = ix2 j (0 : Fin 1) :=
      funext fun a => Fin.ext (by match a with | ⟨0, _⟩ => rfl | ⟨1, _⟩ => rfl)
    rw [el, er]
  rw [val_main_v110_apply, e110, val_main_v109_apply, val_main_v106_apply, val_main_v108_apply, val_main_v107_apply,
    e10, hsum, Ideal.addf_def]
  unfold Cert.SpecEdge.scoreRef
  refine congrArg (· + x10 (ix1 (0 : Fin 1))) (Finset.sum_congr rfl fun j _ => ?_)
  rw [hidden_apply]
  refine congrArg (fun s => max (s + x8 (ix1 j)) (Ideal.ofBits .f32 0x00000000#32) * x9 (ix2 j (0 : Fin 1)))
    (Finset.sum_congr rfl fun q _ => ?_)
  rw [feat_row]

end Cert.ReferenceIdeal.RefValue

end
-- ==== Proof.EdgeMath.lean ====
import proofs.«405414_j17695265259649_3_alg».proof.Proof.SpecEdge
import Mathlib.Algebra.BigOperators.Fin
import Mathlib.Data.EReal.Basic

noncomputable section

namespace Cert.SpecEdge

open Idealize.ShloMosaic Idealize.ShloMosaic.ValueIdx
open scoped BigOperators

/-- A sum of 129 terms is the sum of its first 64, of its next 64, and its last term: 129 = (64 + 64) + 1. -/
private theorem sum_129 (f : Fin 129 → EReal) :
    ∑ q : Fin 129, f q
      = (∑ k : Fin 64, f ⟨k.val, by omega⟩) + (∑ k : Fin 64, f ⟨64 + k.val, by omega⟩) + f ⟨128, by omega⟩ := by
  -- the last term is split off, then the remaining 128 terms are cut into two runs of 64
  have h1 : ∑ q : Fin (128 + 1), f q = ∑ i : Fin 128, f i.castSucc + f (Fin.last 128) :=
    Fin.sum_univ_castSucc f
  have h2 : ∑ i : Fin (64 + 64), f (Fin.castSucc i)
      = ∑ i : Fin 64, f (Fin.castSucc (Fin.castAdd 64 i)) + ∑ i : Fin 64, f (Fin.castSucc (Fin.natAdd 64 i)) :=
    Fin.sum_univ_add (fun i : Fin (64 + 64) => f (Fin.castSucc i))
  exact h1.trans (congrArg (· + f (Fin.last 128)) h2)

/-- The 129 features contracted against column j of the weight: rows 0..63 meet the source features, rows 64..127
    the target features, row 128 the edge attribute; each product is commuted. -/
private theorem contract_split (hs hd : Fin 64 → EReal) (a : EReal) (W3 : (⟨2, ![129, 64]⟩ : Shape).Idx → EReal)
    (j : Fin 64) :
    (∑ q : Fin 129, cat hs hd a q * W3 (ix2 q j))
      = (∑ k : Fin 64, W3 (ix2 (⟨k.val, by omega⟩ : Fin 129) j) * hs k)
        + (∑ k : Fin 64, W3 (ix2 (⟨64 + k.val, by omega⟩ : Fin 129) j) * hd k)
        + (∑ _k : Fin 1, W3 (ix2 (⟨128, by omega⟩ : Fin 129) j) * a) := by
  rw [sum_129 (fun q => cat hs hd a q * W3 (ix2 q j)), Fin.sum_univ_one]
  -- feature k < 64 is source feature k
  have e1 : ∀ k : Fin 64, cat hs hd a (⟨k.val, by omega⟩ : Fin 129) = hs k := by
    intro k
    unfold cat
    rw [dif_pos (show (⟨k.val, by omega⟩ : Fin 129).val < 64 from k.isLt)]
  -- feature 64 + k is target feature k
  have e2 : ∀ k : Fin 64, cat hs hd a (⟨64 + k.val, by omega⟩ : Fin 129) = hd k := by
    intro k
    unfold cat
    rw [dif_neg (show ¬ (⟨64 + k.val, by omega⟩ : Fin 129).val < 64 from by simp),
      dif_pos (show (⟨64 + k.val, by omega⟩ : Fin 129).val < 128 from by have := k.isLt; simp; omega)]
    congr 1
    apply Fin.ext
    simp
  -- feature 128 is the edge attribute
  have e3 : cat hs hd a (⟨128, by omega⟩ : Fin 129) = a := by
    unfold cat
    rw [dif_neg (by simp), dif_neg (by simp)]
  simp only [e1, e2, e3]
  congr 1
  · congr 1
    · exact Finset.sum_congr rfl (fun k _ => mul_comm _ _)
    · exact Finset.sum_congr rfl (fun k _ => mul_comm _ _)
  · exact mul_comm _ _

/-- The two arrangements of the edge score are one number: a sum over the 129 concatenated features is the sum of
    the sums over its three runs (sums on the extended reals commute and associate), and each product commutes. -/
theorem score_eq (z : EReal) (hs hd : Fin 64 → EReal) (a : EReal) (W3 : (⟨2, ![129, 64]⟩ : Shape).Idx → EReal)
    (b3 : (⟨1, ![64]⟩ : Shape).Idx → EReal) (W4 : (⟨2, ![64, 1]⟩ : Shape).Idx → EReal) (b4 : (⟨1, ![1]⟩ : Shape).Idx → EReal) :
    scoreKer z hs hd a W3 b3 W4 b4 = scoreRef z hs hd a W3 b3 W4 b4 := by
  unfold scoreKer scoreRef
  congr 1
  -- term j of the outer sum: the inner contraction by the split above, the outer product commuted
  refine Finset.sum_congr rfl (fun j _ => ?_)
  rw [contract_split hs hd a W3 j, mul_comm]

end Cert.SpecEdge

end
-- ==== Proof.PreDecode.lean ====
import proofs.«405414_j17695265259649_3_alg».proof.Defs
import proofs.«405414_j17695265259649_3_alg».proof.Proof.Gen.Pre_finite_inputs
import proofs.«405414_j17695265259649_3_alg».proof.Proof.Gen.KernelIdeal
import proofs.«405414_j17695265259649_3_alg».proof.Proof.Spec
import proofs.«405414_j17695265259649_3_alg».proof.Proof.SpecEdge
import Idealize.ShloMosaic.Lib.ReduceAll
import Idealize.ShloMosaic.Lib.StableHlo.Predicate
import Idealize.ShloMosaic.Lib.ValueIdx
import Idealize.ShloMosaic.Lib.Pipeline.Value

noncomputable section

namespace Cert.PreDecode

open Idealize.ShloMosaic Idealize.ShloMosaic.TcCoe Idealize.ShloMosaic.ValueIdx Idealize.SL.Sem

/-- The scalar shape has exactly one index. -/
private instance : Subsingleton Cert.Pre_finite_inputs.S_.Idx := ⟨fun a b => funext fun d => d.elim0⟩

/-- The last conjunct of the precondition, read at one entry: every word of the edge list is at least 0 read signed. -/
private theorem edge_words_nonneg
    (a0 : FVec Ideal Cert.Pre_finite_inputs.S100000x128 .f32) (a1 : IVec Cert.Pre_finite_inputs.S2x1600000 32)
    (a2 : FVec Ideal Cert.Pre_finite_inputs.S1600000x1 .f32) (a3 : FVec Ideal Cert.Pre_finite_inputs.S128x64 .f32)
    (a4 : FVec Ideal Cert.Pre_finite_inputs.S64 .f32) (a5 : FVec Ideal Cert.Pre_finite_inputs.S64x64 .f32)
    (a6 : FVec Ideal Cert.Pre_finite_inputs.S64 .f32) (a7 : FVec Ideal Cert.Pre_finite_inputs.S129x64 .f32)
    (a8 : FVec Ideal Cert.Pre_finite_inputs.S64 .f32) (a9 : FVec Ideal Cert.Pre_finite_inputs.S64x1 .f32)
    (a10 : FVec Ideal Cert.Pre_finite_inputs.S1 .f32)
    (h : Cert.Pre_finite_inputs.fn (F := Ideal) a0 a1 a2 a3 a4 a5 a6 a7 a8 a9 a10 = fun _ => 1#1)
    (i : Cert.Pre_finite_inputs.S2x1600000.Idx) : 0 ≤ BitVec.toInt (a1 i) := by
  have h0 := congrFun h ix0
  dsimp only [Cert.Pre_finite_inputs.fn, Cert.Pre_finite_inputs.fn_part1, Cert.Pre_finite_inputs.fn_part2,
    Cert.Pre_finite_inputs.fn_part3] at h0
  -- the conjunction's last member is the reduction by "and" of (word ≥ 0) over the whole edge list
  have h1 := (IntOp.andi_eq_one.1 h0).2
  have h2 := Host.reduce_andi_all _ _ _ _ _ h1 i
  exact IntOp.cmpi_sge.1 h2

/-- The wrap adds N only to a negative word. -/
private theorem wrapWord_of_nonneg (w : BitVec 32) (hw : 0 ≤ BitVec.toInt w) : Cert.SpecEdge.wrapWord w = w := by
  unfold Cert.SpecEdge.wrapWord
  rw [if_neg]
  rw [BitVec.slt_iff_toInt_lt, show (0#32 : BitVec 32).toInt = 0 from by decide]
  omega

/-- Row 0 of the edge list, read at column e. -/
private theorem srcOf_apply (x : (⟨Cert.KernelIdeal.S2x1600000, .i32⟩ : BufTy).Contents (Elt Ideal)) (e : Fin 1600000) :
    Cert.Spec.srcOf (F := Ideal) x (ix1 e) = x (ix2 (0 : Fin 2) e) := by
  unfold Cert.Spec.srcOf
  refine (shapeCast_apply _ _ (ix1 e) (ix2 (0 : Fin 1) e) ?_).trans ?_
  · rw [Shape.rowMajor_val_two, Shape.rowMajor_val_one]
    show (0 : ℕ) * 1600000 + e.val = e.val
    omega
  · refine extractStridedSlice_apply _ _ _ (ix2 (0 : Fin 1) e) (ix2 (0 : Fin 2) e) (fun a => ?_)
    match a with
    | ⟨0, _⟩ => rfl
    | ⟨1, _⟩ =>
      show e.val = 0 + e.val
      omega

/-- Row 1 of the edge list, read at column e. -/
private theorem dstOf_apply (x : (⟨Cert.KernelIdeal.S2x1600000, .i32⟩ : BufTy).Contents (Elt Ideal)) (e : Fin 1600000) :
    Cert.Spec.dstOf (F := Ideal) x (ix1 e) = x (ix2 (1 : Fin 2) e) := by
  unfold Cert.Spec.dstOf
  refine (shapeCast_apply _ _ (ix1 e) (ix2 (0 : Fin 1) e) ?_).trans ?_
  · rw [Shape.rowMajor_val_two, Shape.rowMajor_val_one]
    show (0 : ℕ) * 1600000 + e.val = e.val
    omega
  · refine extractStridedSlice_apply _ _ _ (ix2 (0 : Fin 1) e) (ix2 (1 : Fin 2) e) (fun a => ?_)
    match a with
    | ⟨0, _⟩ => rfl
    | ⟨1, _⟩ =>
      show e.val = 0 + e.val
      omega

/-- An edge list of non-negative words: the wrap leaves every source word alone. -/
private theorem wrap_srcOf (x : (⟨Cert.KernelIdeal.S2x1600000, .i32⟩ : BufTy).Contents (Elt Ideal))
    (hx : ∀ i, 0 ≤ BitVec.toInt (x i)) (e : Fin 1600000) :
    Cert.SpecEdge.wrapWord (Cert.Spec.srcOf (F := Ideal) x (ix1 e)) = Cert.Spec.srcOf (F := Ideal) x (ix1 e) := by
  rw [srcOf_apply]
  exact wrapWord_of_nonneg _ (hx _)

/-- The same for every target word. -/
private theorem wrap_dstOf (x : (⟨Cert.KernelIdeal.S2x1600000, .i32⟩ : BufTy).Contents (Elt Ideal))
    (hx : ∀ i, 0 ≤ BitVec.toInt (x i)) (e : Fin 1600000) :
    Cert.SpecEdge.wrapWord (Cert.Spec.dstOf (F := Ideal) x (ix1 e)) = Cert.Spec.dstOf (F := Ideal) x (ix1 e) := by
  rw [dstOf_apply]
  exact wrapWord_of_nonneg _ (hx _)

/-- Under the precondition every edge endpoint word is non-negative, so the reference's wrap of a negative index
    does nothing to a source word. -/
theorem wrap_src (m : (ℓ : Loc Cert.KernelIdeal.nD Cert.KernelIdeal.τ Cert.KernelIdeal.sig) → Buf (Elt Ideal) ℓ)
    (h : Cert.Pre_KernelIdeal m) (c : Dev Cert.KernelIdeal.nD) (e : Fin 1600000) :
    Cert.SpecEdge.wrapWord (Cert.Spec.srcOf (F := Ideal) (m ((c.tc : Thread Cert.KernelIdeal.nD Cert.KernelIdeal.τ).loc Cert.KernelIdeal.main_arg1)) (ix1 e))
      = Cert.Spec.srcOf (F := Ideal) (m ((c.tc : Thread Cert.KernelIdeal.nD Cert.KernelIdeal.τ).loc Cert.KernelIdeal.main_arg1)) (ix1 e) := by
  exact wrap_srcOf _ (fun i => edge_words_nonneg _ _ _ _ _ _ _ _ _ _ _ (h c) i) e

/-- The same for a target word. -/
theorem wrap_dst (m : (ℓ : Loc Cert.KernelIdeal.nD Cert.KernelIdeal.τ Cert.KernelIdeal.sig) → Buf (Elt Ideal) ℓ)
    (h : Cert.Pre_KernelIdeal m) (c : Dev Cert.KernelIdeal.nD) (e : Fin 1600000) :
    Cert.SpecEdge.wrapWord (Cert.Spec.dstOf (F := Ideal) (m ((c.tc : Thread Cert.KernelIdeal.nD Cert.KernelIdeal.τ).loc Cert.KernelIdeal.main_arg1)) (ix1 e))
      = Cert.Spec.dstOf (F := Ideal) (m ((c.tc : Thread Cert.KernelIdeal.nD Cert.KernelIdeal.τ).loc Cert.KernelIdeal.main_arg1)) (ix1 e) := by
  exact wrap_dstOf _ (fun i => edge_words_nonneg _ _ _ _ _ _ _ _ _ _ _ (h c) i) e

end Cert.PreDecode

end
-- ==== Proof.lean ====
/-
  A two-layer graph convolution followed by an edge MLP: the Pallas program against its jnp reference.

  Both programs compute, for every edge e of a graph on N = 100000 nodes with E = 1600000 edges,

      score e = sum_j relu( sum_q cat(e, q) · W3[q, j] + b3[j] ) · W4[j, 0] + b4[0],
      cat(e, ·) = h[src e] ++ h[dst e] ++ [edge_attr e],      h = layer (layer (x·W1) b1 · W2) b2,

  where a layer appends self-loops, normalises by deg^(-1/2) at both endpoints, scatter-adds the gathered rows and
  applies relu. The kernel computes the two dense products x·W1 and h·W2 in pallas_calls over row blocks, keeps the
  layer's gathers and scatters on the host exactly as the reference spells them, and computes the edge MLP in a
  third pallas_call over blocks of 16000 edges, transposed, with W3 cut into its three row blocks.

  At the ideal instance the two sides are one function of the arguments:
  * a row-blocked product into a zero accumulator is the plain product, entry by entry (Region0, Region1);
  * the host operations between the calls are the same on both sides and are carried as one function (Spec.layer;
    Glue1, Glue2 on the kernel side, RefSide.feat_eq on the reference side);
  * the contraction over the 129 concatenated features is the sum of the three partial contractions, and each
    product commutes (EdgeMath.score_eq): sums on the extended reals commute and associate, so no finiteness is used;
  * the kernel takes a node row by an index clamped into the table, the reference first reads a negative index i
    as i + N and then clamps: the two agree exactly when no index is negative, which is the added precondition
    (PreDecode). At an index ≥ N both clamp to the last row, so no upper bound is needed.
-/
import proofs.«405414_j17695265259649_3_alg».proof.Defs
import proofs.«405414_j17695265259649_3_alg».proof.Proof.Gen.Kernel
import proofs.«405414_j17695265259649_3_alg».proof.Proof.Gen.Kernel.Frame
import proofs.«405414_j17695265259649_3_alg».proof.Proof.Gen.KernelIdeal
import proofs.«405414_j17695265259649_3_alg».proof.Proof.Gen.KernelIdeal.Frame
import proofs.«405414_j17695265259649_3_alg».proof.Proof.Gen.ReferenceIdeal
import proofs.«405414_j17695265259649_3_alg».proof.Proof.Gen.ReferenceIdeal.Run
import proofs.«405414_j17695265259649_3_alg».proof.Proof.Gen.ReferenceIdeal.Read
import proofs.«405414_j17695265259649_3_alg».proof.Proof.Gen.Pre_finite_inputs
import proofs.«405414_j17695265259649_3_alg».proof.Proof.Spec
import proofs.«405414_j17695265259649_3_alg».proof.Proof.SpecEdge
import proofs.«405414_j17695265259649_3_alg».proof.Proof.KernelRun
import proofs.«405414_j17695265259649_3_alg».proof.Proof.Region0
import proofs.«405414_j17695265259649_3_alg».proof.Proof.Region1
import proofs.«405414_j17695265259649_3_alg».proof.Proof.Glue1
import proofs.«405414_j17695265259649_3_alg».proof.Proof.Glue2
import proofs.«405414_j17695265259649_3_alg».proof.Proof.Region2
import proofs.«405414_j17695265259649_3_alg».proof.Proof.KernelTail
import proofs.«405414_j17695265259649_3_alg».proof.Proof.RefSide
import proofs.«405414_j17695265259649_3_alg».proof.Proof.EdgeMath
import proofs.«405414_j17695265259649_3_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-! ## The kernel's result, entry by entry -/

section KernelValue

open Cert.KernelIdeal Cert.KernelIdeal.Gen Cert.KernelIdeal.Val

variable (m : (ℓ : Loc nD τ sig) → Buf (Elt Ideal) ℓ) (ρ : Dev nD → PrngReg)

/-- The node features the kernel's host leaves before the edge MLP are the two layers over the two dense products. -/
theorem feat_value (c : Dev nD) :
    W7 m ρ c (Proc.devRef .tc main_v85)
      = Cert.Spec.nodeFeat (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) := by
  rw [v85_value m ρ c, v45_value m ρ c, v44_value m ρ c, v4_value m ρ c]
  rfl

/-- Entry e of the kernel's result: the edge score in the kernel's arrangement over the node features read at the
    rows the clamped endpoint words address. -/
theorem kernel_value (c : Dev nD) (e : Fin 1600000) :
    W13 m ρ c (Proc.devRef .tc main_v100) (ix1 e)
      = Cert.SpecEdge.scoreKer (Ideal.ofBits .f32 0x00000000#32)
          (fun k => Cert.Spec.nodeFeat (m ((c : Thread nD τ).loc main_arg0)) (m ((c : Thread nD τ).loc main_arg1))
              (m ((c : Thread nD τ).loc main_arg3)) (m ((c : Thread nD τ).loc main_arg4))
              (m ((c : Thread nD τ).loc main_arg5)) (m ((c : Thread nD τ).loc main_arg6))
            (ix2 (Cert.SpecEdge.clampRow 100000 (by decide) (Cert.Spec.srcOf (F := Ideal) (m ((c : Thread nD τ).loc main_arg1)) (ix1 e))) k))
          (fun k => Cert.Spec.nodeFeat (m ((c : Thread nD τ).loc main_arg0)) (m ((c : Thread nD τ).loc main_arg1))
              (m ((c : Thread nD τ).loc main_arg3)) (m ((c : Thread nD τ).loc main_arg4))
              (m ((c : Thread nD τ).loc main_arg5)) (m ((c : Thread nD τ).loc main_arg6))
            (ix2 (Cert.SpecEdge.clampRow 100000 (by decide) (Cert.Spec.dstOf (F := Ideal) (m ((c : Thread nD τ).loc main_arg1)) (ix1 e))) k))
          (m ((c : Thread nD τ).loc main_arg2) (ix2 e (0 : Fin 1)))
          (m ((c : Thread nD τ).loc main_arg7)) (m ((c : Thread nD τ).loc main_arg8))
          (m ((c : Thread nD τ).loc main_arg9)) (m ((c : Thread nD τ).loc main_arg10)) := by
  rw [out_value m ρ c e, v99_value m ρ c e, tail_value m ρ c e, feat_value m ρ c]

end KernelValue

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, with no negative edge index, the two programs end with equal results:
    entry e of either is the edge score of edge e, in two arrangements of the same sums, over the same node features
    read at the same rows. -/
theorem algebraic : Cert.algebraic_KernelIdeal_ReferenceIdeal := by
  intro m ρ m' ρ' hpre hagree
  refine ⟨fun c => Cert.KernelIdeal.Gen.W13 m ρ c (Proc.devRef .tc Cert.KernelIdeal.main_v100),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v110_eq]
  obtain ⟨a0, a1, a2, a3, a4, a5, a6, a7, a8, a9, a10⟩ := hagree c
  rw [a0, a1, a2, a3, a4, a5, a6, a7, a8, a9, a10]
  funext i
  obtain ⟨e, rfl⟩ : ∃ e : Fin 1600000, i = ix1 e := ⟨i 0, eq_ix1 i⟩
  rw [Cert.ReferenceIdeal.RefValue.ref_value, Cert.ReferenceIdeal.RefValue.feat_eq,
    Cert.PreDecode.wrap_src m hpre c e, Cert.PreDecode.wrap_dst m hpre c e, ← Cert.SpecEdge.score_eq]
  exact (kernel_value m ρ c e).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
